-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x10x5 : Shape := ⟨3, ![65536, 10, 5]⟩
abbrev S10000x16 : Shape := ⟨2, ![10000, 16]⟩
abbrev S2000x8 : Shape := ⟨2, ![2000, 8]⟩
abbrev S1000x4 : Shape := ⟨2, ![1000, 4]⟩
abbrev S7x3 : Shape := ⟨2, ![7, 3]⟩
abbrev S1440x8 : Shape := ⟨2, ![1440, 8]⟩
abbrev S390x256 : Shape := ⟨2, ![390, 256]⟩
abbrev S256 : Shape := ⟨1, ![256]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S10000x16 : S_.BroadcastsInDim S10000x16 (![] : Fin 0 → Fin S10000x16.rank)
  reducesTo_S10000x16_S_d0_1 : S10000x16.ReducesTo [0, 1] S_
  h_S_ : 0 < S_.numel
  bcast_S_S2000x8 : S_.BroadcastsInDim S2000x8 (![] : Fin 0 → Fin S2000x8.rank)
  reducesTo_S2000x8_S_d0_1 : S2000x8.ReducesTo [0, 1] S_
  bcast_S_S1000x4 : S_.BroadcastsInDim S1000x4 (![] : Fin 0 → Fin S1000x4.rank)
  reducesTo_S1000x4_S_d0_1 : S1000x4.ReducesTo [0, 1] S_
  bcast_S_S7x3 : S_.BroadcastsInDim S7x3 (![] : Fin 0 → Fin S7x3.rank)
  reducesTo_S7x3_S_d0_1 : S7x3.ReducesTo [0, 1] S_
  bcast_S_S1440x8 : S_.BroadcastsInDim S1440x8 (![] : Fin 0 → Fin S1440x8.rank)
  reducesTo_S1440x8_S_d0_1 : S1440x8.ReducesTo [0, 1] S_
  bcast_S_S390x256 : S_.BroadcastsInDim S390x256 (![] : Fin 0 → Fin S390x256.rank)
  reducesTo_S390x256_S_d0_1 : S390x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S256x512 .f32) (main_arg9 : FVec F S512 .f32) (main_arg10 : FVec F S512x128 .f32) (main_arg11 : FVec F S128 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S1440x8 .f32) (main_arg6 : FVec F S390x256 .f32) (main_arg7 : FVec F S256 .f32) (main_arg8 : FVec F S256x512 .f32) (main_arg9 : FVec F S512 .f32) (main_arg10 : FVec F S512x128 .f32) (main_arg11 : FVec F S128 .f32) (main_v13 : IVec S_ 1) (main_v16 : IVec S7x3 1) : IVec S_ 1 :=
  let main_c_5 : IVec S_ 1 := constantI S_ 1 1#1
  let main_v17 : IVec S_ 1 := (fun x v => Host.reduce IntOp.andi x v reducesTo_S7x3_S_d0_1 h_S_) main_v16 main_c_5
  let main_v18 : IVec S_ 1 := andi main_v13 main_v17
  let main_v19 : FVec F S1440x8 .f32 := Host.absf main_arg5
  let main_cst_6 : FVec F S_ .f32 := constant S_ .f32 0x7F800000#32
  let main_v20 : FVec F S1440x8 .f32 := broadcastInDim S1440x8 ![] bcast_S_S1440x8 main_cst_6
  let main_v21 : IVec S1440x8 1 := cmpf .olt main_v19 main_v20
  let main_c_7 : IVec S_ 1 := constantI S_ 1 1#1
  let main_v22 : IVec S_ 1 := (fun x v => Host.reduce IntOp.andi x v reducesTo_S1440x8_S_d0_1 h_S_) main_v21 main_c_7
  let main_v23 : IVec S_ 1 := andi main_v18 main_v22
  let main_v24 : FVec F S390x256 .f32 := Host.absf main_arg6
  let main_cst_8 : FVec F S_ .f32 := constant S_ .f32 0x7F800000#32
  let main_v25 : FVec F S390x256 .f32 := broadcastInDim S390x256 ![] bcast_S_S390x256 main_cst_8
  let main_v26 : IVec S390x256 1 := cmpf .olt main_v24 main_v25
  let main_c_9 : IVec S_ 1 := constantI S_ 1 1#1
  let main_v27 : IVec S_ 1 := (fun x v => Host.reduce IntOp.andi x v reducesTo_S390x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : IVec S65536x10x5 32) (main_arg1 : FVec F S10000x16 .f32) (main_arg2 : FVec F S2000x8 .f32) (main_arg3 : FVec F S1000x4 .f32) (main_arg4 : FVec F S7x3 .f32) (main_arg5 : FVec F S1440x8 .f32) (main_arg6 : FVec F S390x256 .f32) (main_arg7 : FVec F S256 .f32) (main_arg8 : FVec F S256x512 .f32) (main_arg9 : FVec F S512 .f32) (main_arg10 : FVec F S512x128 .f32) (main_arg11 : FVec F S128 .f32) : IVec S_ 1 :=
  let main_v0 : FVec F S10000x16 .f32 := Host.absf main_arg1
  let main_cst : FVec F S_ .f32 := constant S_ .f32 0x7F800000#32
  let main_v1 : FVec F S10000x16 .f32 := broadcastInDim S10000x16 ![] bcast_S_S10000x16 main_cst
  let main_v2 : IVec S10000x16 1 := cmpf .olt main_v0 main_v1
  let main_c : IVec S_ 1 := constantI S_ 1 1#1
  let main_v3 : IVec S_ 1 := (fun x v => Host.reduce IntOp.andi x v reducesTo_S10000x16_S_d0_1 h_S_) main_v2 main_c
  let main_v4 : FVec F S2000x8 .f32 := Host.absf main_arg2
  let main_cst_0 : FVec F S_ .f32 := constant S_ .f32 0x7F800000#32
  let main_v5 : FVec F S2000x8 .f32 := broadcastInDim S2000x8 ![] bcast_S_S2000x8 main_cst_0
  let main_v6 : IVec S2000x8 1 := cmpf .olt main_v4 main_v5
  let main_c_1 : IVec S_ 1 := constantI S_ 1 1#1
  let main_v7 : IVec S_ 1 := (fun x v => Host.reduce IntOp.andi x v reducesTo_S2000x8_S_d0_1 h_S_) main_v6 main_c_1
  let main_v8 : IVec S_ 1 := andi main_v3 main_v7
  let main_v9 : FVec F S1000x4 .f32 := Host.absf main_arg3
  let main_cst_2 : FVec F S_ .f32 := constant S_ .f32 0x7F800000#32
  let main_v10 : FVec F S1000x4 .f32 := broadcastInDim S1000x4 ![] bcast_S_S1000x4 main_cst_2
  let main_v11 : IVec S1000x4 1 := cmpf .olt main_v9 main_v10
  let main_c_3 : IVec S_ 1 := constantI S_ 1 1#1
  let main_v12 : IVec S_ 1 := (fun x v => Host.reduce IntOp.andi x v reducesTo_S1000x4_S_d0_1 h_S_) main_v11 main_c_3
  let main_v13 : IVec S_ 1 := andi main_v8 main_v12
  let main_v14 : FVec F S7x3 .f32 := Host.absf main_arg4
  let main_cst_4 : FVec F S_ .f32 := constant S_ .f32 0x7F800000#32
  let main_v15 : FVec F S7x3 .f32 := broadcastInDim S7x3 ![] bcast_S_S7x3 main_cst_4
  let main_v16 : IVec S7x3 1 := cmpf .olt main_v14 main_v15
  fn_part1 (F := F) main_arg5 main_arg6 main_arg7 main_arg8 main_arg9 main_arg10 main_arg11 main_v13 main_v16
-- ==== Kernel.lean ====
abbrev S65536x10x5 : Shape := ⟨3, ![65536, 10, 5]⟩
abbrev S10000x16 : Shape := ⟨2, ![10000, 16]⟩
abbrev S2000x8 : Shape := ⟨2, ![2000, 8]⟩
abbrev S1000x4 : Shape := ⟨2, ![1000, 4]⟩
abbrev S7x3 : Shape := ⟨2, ![7, 3]⟩
abbrev S1440x8 : Shape := ⟨2, ![1440, 8]⟩
abbrev S390x256 : Shape := ⟨2, ![390, 256]⟩
abbrev S256 : Shape := ⟨1, ![256]⟩
abbrev S256x512 : Shape := ⟨2, ![256, 512]⟩
abbrev S512 : Shape := ⟨1, ![512]⟩
abbrev S512x128 : Shape := ⟨2, ![512, 128]⟩
abbrev S128 : Shape := ⟨1, ![128]⟩
abbrev S65536x10x1 : Shape := ⟨3, ![65536, 10, 1]⟩
abbrev S65536x10 : Shape := ⟨2, ![65536, 10]⟩
abbrev S_ : Shape := ⟨0, ![]⟩
abbrev S65536x10x16 : Shape := ⟨3, ![65536, 10, 16]⟩
abbrev S65536x10x8 : Shape := ⟨3, ![65536, 10, 8]⟩
abbrev S65536x10x4 : Shape := ⟨3, ![65536, 10, 4]⟩
abbrev S65536x10x3 : Shape := ⟨3, ![65536, 10, 3]⟩
abbrev S65536x10x39 : Shape := ⟨3, ![65536, 10, 39]⟩
abbrev S65536x390 : Shape := ⟨2, ![65536, 390]⟩
abbrev S65536x128 : Shape := ⟨2, ![65536, 128]⟩
abbrev S2048x390 : Shape := ⟨2, ![2048, 390]⟩
abbrev S2048x128 : Shape := ⟨2, ![2048, 128]⟩
abbrev S2048x256 : Shape := ⟨2, ![2048, 256]⟩
abbrev S1x256 : Shape := ⟨2, ![1, 256]⟩
abbrev S2048x512 : Shape := ⟨2, ![2048, 512]⟩
abbrev S1x512 : Shape := ⟨2, ![1, 512]⟩
abbrev S1x128 : Shape := ⟨2, ![1, 128]⟩
abbrev S2048 : Shape := ⟨1, ![2048]⟩
abbrev S2048x1 : Shape := ⟨2, ![2048, 1]⟩

abbrev nBuf : Space → Nat
  | .hbm => 70
  | .vmem => 10
  | .smem => 0
  | _ => 0

abbrev bufTy : (tb : Table) → Fin (tcTables nBuf tb) → BufTy
  | .hbm, ⟨0, _⟩ => ⟨S65536x10x5, .i32⟩
  | .hbm, ⟨1, _⟩ => ⟨S10000x16, .f32⟩
  | .hbm, ⟨2, _⟩ => ⟨S2000x8, .f32⟩
  | .hbm, ⟨3, _⟩ => ⟨S1000x4, .f32⟩
  | .hbm, ⟨4, _⟩ => ⟨S7x3, .f32⟩
  | .hbm, ⟨5, _⟩ => ⟨S1440x8, .f32⟩
  | .hbm, ⟨6, _⟩ => ⟨S390x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x128, .f32⟩
  | .hbm, ⟨11, _⟩ => ⟨S128, .f32⟩
  | .hbm, ⟨12, _⟩ => ⟨S65536x10x1, .i32⟩
  | .hbm, ⟨13, _⟩ => ⟨S65536x10, .i32⟩
  | .hbm, ⟨14, _⟩ => ⟨S_, .i32⟩
  | .hbm, ⟨15, _⟩ => ⟨S65536x10, .i32⟩
  | .hbm, ⟨16, _⟩ => ⟨S65536x10, .i1⟩
  | .hbm, ⟨17, _⟩ => ⟨S_, .i32⟩
  | .hbm, ⟨18, _⟩ => ⟨S65536x10, .i32⟩
  | .hbm, ⟨19, _⟩ => ⟨S65536x10, .i32⟩
  | .hbm, ⟨20, _⟩ => ⟨S65536x10, .i32⟩
  | .hbm, ⟨21, _⟩ => ⟨S65536x10x1, .i32⟩
  | .hbm, ⟨22, _⟩ => ⟨S65536x10x16, .f32⟩
  | .hbm, ⟨23, _⟩ => ⟨S65536x10x1, .i32⟩
  | .hbm, ⟨24, _⟩ => ⟨S65536x10, .i32⟩
  | .hbm, ⟨25, _⟩ => ⟨S_, .i32⟩
  | .hbm, ⟨26, _⟩ => ⟨S65536x10, .i32⟩
  | .hbm, ⟨27, _⟩ => ⟨S65536x10, .i1⟩
  | .hbm, ⟨28, _⟩ => ⟨S_, .i32⟩
  | .hbm, ⟨29, _⟩ => ⟨S65536x10, .i32⟩
  | .hbm, ⟨30, _⟩ => ⟨S65536x10, .i32⟩
  | .hbm, ⟨31, _⟩ => ⟨S65536x10, .i32⟩
  | .hbm, ⟨32, _⟩ => ⟨S65536x10x1, .i32⟩
  | .hbm, ⟨33, _⟩ => ⟨S65536x10x8, .f32⟩
  | .hbm, ⟨34, _⟩ => ⟨S65536x10x1, .i32⟩
  | .hbm, ⟨35, _⟩ => ⟨S65536x10, .i32⟩
  | .hbm, ⟨36, _⟩ => ⟨S_, .i32⟩
  | .hbm, ⟨37, _⟩ => ⟨S65536x10, .i32⟩
  | .hbm, ⟨38, _⟩ => ⟨S65536x10, .i1⟩
  | .hbm, ⟨39, _⟩ => ⟨S_, .i32⟩
  | .hbm, ⟨40, _⟩ => ⟨S65536x10, .i32⟩
  | .hbm, ⟨41, _⟩ => ⟨S65536x10, .i32⟩
  | .hbm, ⟨42, _⟩ => ⟨S65536x10, .i32⟩
  | .hbm, ⟨43, _⟩ => ⟨S65536x10x1, .i32⟩
  | .hbm, ⟨44, _⟩ => ⟨S65536x10x4, .f32⟩
  | .hbm, ⟨45, _⟩ => ⟨S65536x10x1, .i32⟩
  | .hbm, ⟨46, _⟩ => ⟨S65536x10, .i32⟩
  | .hbm, ⟨47, _⟩ => ⟨S_, .i32⟩
  | .hbm, ⟨48, _⟩ => ⟨S65536x10, .i32⟩
  | .hbm, ⟨49, _⟩ => ⟨S65536x10, .i1⟩
  | .hbm, ⟨50, _⟩ => ⟨S_, .i32⟩
  | .hbm, ⟨51, _⟩ => ⟨S65536x10, .i32⟩
  | .hbm, ⟨52, _⟩ => ⟨S65536x10, .i32⟩
  | .hbm, ⟨53, _⟩ => ⟨S65536x10, .i32⟩
  | .hbm, ⟨54, _⟩ => ⟨S65536x10x1, .i32⟩
  | .hbm, ⟨55, _⟩ => ⟨S65536x10x3, .f32⟩
  | .hbm, ⟨56, _⟩ => ⟨S65536x10x1, .i32⟩
  | .hbm, ⟨57, _⟩ => ⟨S65536x10, .i32⟩
  | .hbm, ⟨58, _⟩ => ⟨S_, .i32⟩
  | .hbm, ⟨59, _⟩ => ⟨S65536x10, .i32⟩
  | .hbm, ⟨60, _⟩ => ⟨S65536x10, .i1⟩
  | .hbm, ⟨61, _⟩ => ⟨S_, .i32⟩
  | .hbm, ⟨62, _⟩ => ⟨S65536x10, .i32⟩
  | .hbm, ⟨63, _⟩ => ⟨S65536x10, .i32⟩
  | .hbm, ⟨64, _⟩ => ⟨S65536x10, .i32⟩
  | .hbm, ⟨65, _⟩ => ⟨S65536x10x1, .i32⟩
  | .hbm, ⟨66, _⟩ => ⟨S65536x10x8, .f32⟩
  | .hbm, ⟨67, _⟩ => ⟨S65536x10x39, .f32⟩
  | .hbm, ⟨68, _⟩ => ⟨S65536x390, .f32⟩
  | .hbm, ⟨69, _⟩ => ⟨S65536x128, .f32⟩
  | .local _ .vmem, ⟨0, _⟩ => ⟨S2048x390, .f32⟩
  | .local _ .vmem, ⟨1, _⟩ => ⟨S2048x390, .f32⟩
  | .local _ .vmem, ⟨2, _⟩ => ⟨S390x256, .f32⟩
  | .local _ .vmem, ⟨3, _⟩ => ⟨S256, .f32⟩
  | .local _ .vmem, ⟨4, _⟩ => ⟨S256x512, .f32⟩
  | .local _ .vmem, ⟨5, _⟩ => ⟨S512, .f32⟩
  | .local _ .vmem, ⟨6, _⟩ => ⟨S512x128, .f32⟩
  | .local _ .vmem, ⟨7, _⟩ => ⟨S128, .f32⟩
  | .local _ .vmem, ⟨8, _⟩ => ⟨S2048x128, .f32⟩
  | .local _ .vmem, ⟨9, _⟩ => ⟨S2048x128, .f32⟩
  | _, _ => ⟨S65536x10x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x390 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S390x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S65536x10x5_S65536x10x1_0_0_0 : S65536x10x5.Slices ![0, 0, 0] S65536x10x1
  shapeCasts_S65536x10x1_S65536x10 : S65536x10x1.ShapeCasts S65536x10
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  slices_S65536x10x5_S65536x10x1_0_0_1 : S65536x10x5.Slices ![0, 0, 1] S65536x10x1
  slices_S65536x10x5_S65536x10x1_0_0_2 : S65536x10x5.Slices ![0, 0, 2] S65536x10x1
  slices_S65536x10x5_S65536x10x1_0_0_3 : S65536x10x5.Slices ![0, 0, 3] S65536x10x1
  slices_S65536x10x5_S65536x10x1_0_0_4 : S65536x10x5.Slices ![0, 0, 4] S65536x10x1
  concatenates_S65536x10x16_S65536x10x8_S65536x10x4_S65536x10x3_S65536x10x8_S65536x10x39_d2 : Shape.Concatenates [S65536x10x16, S65536x10x8, S65536x10x4, S65536x10x3, S65536x10x8] S65536x10x39 2
  shapeCasts_S65536x10x39_S65536x390 : S65536x10x39.ShapeCasts S65536x390
  inb_S2048x390_S2048x390_0_0 : ∀ a, (![0, 0] : Fin 2 → Nat) a + S2048x390.size a ≤ S2048x390.size a
  h_S2048x390 : 0 < S2048x390.numel
  shapeCasts_S2048x390_S2048x390 : S2048x390.ShapeCasts S2048x390
  bitsLt_bf16_f32 : FTy.bits .bf16 < FTy.bits .f32
  inb_S390x256_S390x256_0_0 : ∀ a, (![0, 0] : Fin 2 → Nat) a + S390x256.size a ≤ S390x256.size a
  h_S390x256 : 0 < S390x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  gather_S10000x16_S65536x10x1_S65536x10x16_2_0_n_n_0_2_116_wf : GatherDims.WF S10000x16 S65536x10x1 S65536x10x16 [2] [0] [] [0] [] 2 ![1, 16]
  gather_S2000x8_S65536x10x1_S65536x10x8_2_0_n_n_0_2_18_wf : GatherDims.WF S2000x8 S65536x10x1 S65536x10x8 [2] [0] [] [0] [] 2 ![1, 8]
  gather_S1000x4_S65536x10x1_S65536x10x4_2_0_n_n_0_2_14_wf : GatherDims.WF S1000x4 S65536x10x1 S65536x10x4 [2] [0] [] [0] [] 2 ![1, 4]
  gather_S7x3_S65536x10x1_S65536x10x3_2_0_n_n_0_2_13_wf : GatherDims.WF S7x3 S65536x10x1 S65536x10x3 [2] [0] [] [0] [] 2 ![1, 3]
  gather_S1440x8_S65536x10x1_S65536x10x8_2_0_n_n_0_2_18_wf : GatherDims.WF S1440x8 S65536x10x1 S65536x10x8 [2] [0] [] [0] [] 2 ![1, 8]
  dot_S2048x390_S390x256_S2048x256_1_0_0_1_n_n_wf : DotDims.WF S2048x390 S390x256 S2048x256 [1] [0] [0] [1] [] []
  dot_S2048x256_S256x512_S2048x512_1_0_0_1_n_n_wf : DotDims.WF S2048x256 S256x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x390.size a ≤ S65536x390.size a
  hwx0_0 : ∀ i : grid0.Coords, EltTy.bits .f32 = 32 ∨ (Rect.block (s := S65536x390) S2048x390.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S390x256.size a ≤ S390x256.size a
  hwx0_1 : ∀ i : grid0.Coords, EltTy.bits .f32 = 32 ∨ (Rect.block (s := S390x256) S390x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .f32 = 32 ∨ (Rect.block (s := S65536x128) S2048x128.size (cc0_transform_7 i) (hinb0_7 i)).WholeWords (EltTy.packing .f32)

variable [Facts₀]

def gather_S10000x16_S65536x10x1_S65536x10x16_2_0_n_n_0_2_116 : GatherDims S10000x16 S65536x10x1 S65536x10x16 where
  offsetDims := [2]
  collapsedSliceDims := [0]
  operandBatchingDims := []
  startIndicesBatchingDims := []
  startIndexMap := [0]
  indexVectorDim := 2
  sliceSizes := ![1, 16]
  wf := gather_S10000x16_S65536x10x1_S65536x10x16_2_0_n_n_0_2_116_wf
def gather_S2000x8_S65536x10x1_S65536x10x8_2_0_n_n_0_2_18 : GatherDims S2000x8 S65536x10x1 S65536x10x8 where
  offsetDims := [2]
  collapsedSliceDims := [0]
  operandBatchingDims := []
  startIndicesBatchingDims := []
  startIndexMap := [0]
  indexVectorDim := 2
  sliceSizes := ![1, 8]
  wf := gather_S2000x8_S65536x10x1_S65536x10x8_2_0_n_n_0_2_18_wf
def gather_S1000x4_S65536x10x1_S65536x10x4_2_0_n_n_0_2_14 : GatherDims S1000x4 S65536x10x1 S65536x10x4 where
  offsetDims := [2]
  collapsedSliceDims := [0]
  operandBatchingDims := []
  startIndicesBatchingDims := []
  startIndexMap := [0]
  indexVectorDim := 2
  sliceSizes := ![1, 4]
  wf := gather_S1000x4_S65536x10x1_S65536x10x4_2_0_n_n_0_2_14_wf
def gather_S7x3_S65536x10x1_S65536x10x3_2_0_n_n_0_2_13 : GatherDims S7x3 S65536x10x1 S65536x10x3 where
  offsetDims := [2]
  collapsedSliceDims := [0]
  operandBatchingDims := []
  startIndicesBatchingDims := []
  startIndexMap := [0]
  indexVectorDim := 2
  sliceSizes := ![1, 3]
  wf := gather_S7x3_S65536x10x1_S65536x10x3_2_0_n_n_0_2_13_wf
def gather_S1440x8_S65536x10x1_S65536x10x8_2_0_n_n_0_2_18 : GatherDims S1440x8 S65536x10x1 S65536x10x8 where
  offsetDims := [2]
  collapsedSliceDims := [0]
  operandBatchingDims := []
  startIndicesBatchingDims := []
  startIndexMap := [0]
  indexVectorDim := 2
  sliceSizes := ![1, 8]
  wf := gather_S1440x8_S65536x10x1_S65536x10x8_2_0_n_n_0_2_18_wf
def dot_S2048x390_S390x256_S2048x256_1_0_0_1_n_n : DotDims S2048x390 S390x256 S2048x256 where
  lhsContracting := [1]
  rhsContracting := [0]
  lhsNonContracting := [0]
  rhsNonContracting := [1]
  lhsBatch := []
  rhsBatch := []
  wf := dot_S2048x390_S390x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v46) S2048x390.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S390x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x10x5 : Shape := ⟨3, ![65536, 10, 5]⟩
abbrev S10000x16 : Shape := ⟨2, ![10000, 16]⟩
abbrev S2000x8 : Shape := ⟨2, ![2000, 8]⟩
abbrev S1000x4 : Shape := ⟨2, ![1000, 4]⟩
abbrev S7x3 : Shape := ⟨2, ![7, 3]⟩
abbrev S1440x8 : Shape := ⟨2, ![1440, 8]⟩
abbrev S390x256 : Shape := ⟨2, ![390, 256]⟩
abbrev S256 : Shape := ⟨1, ![256]⟩
abbrev S256x512 : Shape := ⟨2, ![256, 512]⟩
abbrev S512 : Shape := ⟨1, ![512]⟩
abbrev S512x128 : Shape := ⟨2, ![512, 128]⟩
abbrev S128 : Shape := ⟨1, ![128]⟩
abbrev S65536x10x1 : Shape := ⟨3, ![65536, 10, 1]⟩
abbrev S65536x10 : Shape := ⟨2, ![65536, 10]⟩
abbrev S_ : Shape := ⟨0, ![]⟩
abbrev S65536x10x16 : Shape := ⟨3, ![65536, 10, 16]⟩
abbrev S65536x10x8 : Shape := ⟨3, ![65536, 10, 8]⟩
abbrev S65536x10x4 : Shape := ⟨3, ![65536, 10, 4]⟩
abbrev S65536x10x3 : Shape := ⟨3, ![65536, 10, 3]⟩
abbrev S65536x10x39 : Shape := ⟨3, ![65536, 10, 39]⟩
abbrev S65536x390 : Shape := ⟨2, ![65536, 390]⟩
abbrev S65536x256 : Shape := ⟨2, ![65536, 256]⟩
abbrev S1x256 : Shape := ⟨2, ![1, 256]⟩
abbrev S65536x512 : Shape := ⟨2, ![65536, 512]⟩
abbrev S1x512 : Shape := ⟨2, ![1, 512]⟩
abbrev S65536x128 : Shape := ⟨2, ![65536, 128]⟩
abbrev S1x128 : Shape := ⟨2, ![1, 128]⟩
abbrev S65536 : Shape := ⟨1, ![65536]⟩
abbrev S65536x1 : Shape := ⟨2, ![65536, 1]⟩

abbrev nBuf : Space → Nat
  | .hbm => 101
  | .vmem => 0
  | .smem => 0
  | _ => 0

abbrev bufTy : (tb : Table) → Fin (tcTables nBuf tb) → BufTy
  | .hbm, ⟨0, _⟩ => ⟨S65536x10x5, .i32⟩
  | .hbm, ⟨1, _⟩ => ⟨S10000x16, .f32⟩
  | .hbm, ⟨2, _⟩ => ⟨S2000x8, .f32⟩
  | .hbm, ⟨3, _⟩ => ⟨S1000x4, .f32⟩
  | .hbm, ⟨4, _⟩ => ⟨S7x3, .f32⟩
  | .hbm, ⟨5, _⟩ => ⟨S1440x8, .f32⟩
  | .hbm, ⟨6, _⟩ => ⟨S390x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512x128, .f32⟩
  | .hbm, ⟨11, _⟩ => ⟨S128, .f32⟩
  | .hbm, ⟨12, _⟩ => ⟨S65536x10x1, .i32⟩
  | .hbm, ⟨13, _⟩ => ⟨S65536x10, .i32⟩
  | .hbm, ⟨14, _⟩ => ⟨S_, .i32⟩
  | .hbm, ⟨15, _⟩ => ⟨S65536x10, .i32⟩
  | .hbm, ⟨16, _⟩ => ⟨S65536x10, .i1⟩
  | .hbm, ⟨17, _⟩ => ⟨S_, .i32⟩
  | .hbm, ⟨18, _⟩ => ⟨S65536x10, .i32⟩
  | .hbm, ⟨19, _⟩ => ⟨S65536x10, .i32⟩
  | .hbm, ⟨20, _⟩ => ⟨S65536x10, .i32⟩
  | .hbm, ⟨21, _⟩ => ⟨S65536x10x1, .i32⟩
  | .hbm, ⟨22, _⟩ => ⟨S65536x10x16, .f32⟩
  | .hbm, ⟨23, _⟩ => ⟨S65536x10x1, .i32⟩
  | .hbm, ⟨24, _⟩ => ⟨S65536x10, .i32⟩
  | .hbm, ⟨25, _⟩ => ⟨S_, .i32⟩
  | .hbm, ⟨26, _⟩ => ⟨S65536x10, .i32⟩
  | .hbm, ⟨27, _⟩ => ⟨S65536x10, .i1⟩
  | .hbm, ⟨28, _⟩ => ⟨S_, .i32⟩
  | .hbm, ⟨29, _⟩ => ⟨S65536x10, .i32⟩
  | .hbm, ⟨30, _⟩ => ⟨S65536x10, .i32⟩
  | .hbm, ⟨31, _⟩ => ⟨S65536x10, .i32⟩
  | .hbm, ⟨32, _⟩ => ⟨S65536x10x1, .i32⟩
  | .hbm, ⟨33, _⟩ => ⟨S65536x10x8, .f32⟩
  | .hbm, ⟨34, _⟩ => ⟨S65536x10x1, .i32⟩
  | .hbm, ⟨35, _⟩ => ⟨S65536x10, .i32⟩
  | .hbm, ⟨36, _⟩ => ⟨S_, .i32⟩
  | .hbm, ⟨37, _⟩ => ⟨S65536x10, .i32⟩
  | .hbm, ⟨38, _⟩ => ⟨S65536x10, .i1⟩
  | .hbm, ⟨39, _⟩ => ⟨S_, .i32⟩
  | .hbm, ⟨40, _⟩ => ⟨S65536x10, .i32⟩
  | .hbm, ⟨41, _⟩ => ⟨S65536x10, .i32⟩
  | .hbm, ⟨42, _⟩ => ⟨S65536x10, .i32⟩
  | .hbm, ⟨43, _⟩ => ⟨S65536x10x1, .i32⟩
  | .hbm, ⟨44, _⟩ => ⟨S65536x10x4, .f32⟩
  | .hbm, ⟨45, _⟩ => ⟨S65536x10x1, .i32⟩
  | .hbm, ⟨46, _⟩ => ⟨S65536x10, .i32⟩
  | .hbm, ⟨47, _⟩ => ⟨S_, .i32⟩
  | .hbm, ⟨48, _⟩ => ⟨S65536x10, .i32⟩
  | .hbm, ⟨49, _⟩ => ⟨S65536x10, .i1⟩
  | .hbm, ⟨50, _⟩ => ⟨S_, .i32⟩
  | .hbm, ⟨51, _⟩ => ⟨S65536x10, .i32⟩
  | .hbm, ⟨52, _⟩ => ⟨S65536x10, .i32⟩
  | .hbm, ⟨53, _⟩ => ⟨S65536x10, .i32⟩
  | .hbm, ⟨54, _⟩ => ⟨S65536x10x1, .i32⟩
  | .hbm, ⟨55, _⟩ => ⟨S65536x10x3, .f32⟩
  | .hbm, ⟨56, _⟩ => ⟨S65536x10x1, .i32⟩
  | .hbm, ⟨57, _⟩ => ⟨S65536x10, .i32⟩
  | .hbm, ⟨58, _⟩ => ⟨S_, .i32⟩
  | .hbm, ⟨59, _⟩ => ⟨S65536x10, .i32⟩
  | .hbm, ⟨60, _⟩ => ⟨S65536x10, .i1⟩
  | .hbm, ⟨61, _⟩ => ⟨S_, .i32⟩
  | .hbm, ⟨62, _⟩ => ⟨S65536x10, .i32⟩
  | .hbm, ⟨63, _⟩ => ⟨S65536x10, .i32⟩
  | .hbm, ⟨64, _⟩ => ⟨S65536x10, .i32⟩
  | .hbm, ⟨65, _⟩ => ⟨S65536x10x1, .i32⟩
  | .hbm, ⟨66, _⟩ => ⟨S65536x10x8, .f32⟩
  | .hbm, ⟨67, _⟩ => ⟨S65536x10x39, .f32⟩
  | .hbm, ⟨68, _⟩ => ⟨S65536x390, .f32⟩
  | .hbm, ⟨69, _⟩ => ⟨S65536x256, .f32⟩
  | .hbm, ⟨70, _⟩ => ⟨S1x256, .f32⟩
  | .hbm, ⟨71, _⟩ => ⟨S65536x256, .f32⟩
  | .hbm, ⟨72, _⟩ => ⟨S65536x256, .f32⟩
  | .hbm, ⟨73, _⟩ => ⟨S_, .f32⟩
  | .hbm, ⟨74, _⟩ => ⟨S65536x256, .f32⟩
  | .hbm, ⟨75, _⟩ => ⟨S65536x256, .f32⟩
  | .hbm, ⟨76, _⟩ => ⟨S65536x512, .f32⟩
  | .hbm, ⟨77, _⟩ => ⟨S1x512, .f32⟩
  | .hbm, ⟨78, _⟩ => ⟨S65536x512, .f32⟩
  | .hbm, ⟨79, _⟩ => ⟨S65536x512, .f32⟩
  | .hbm, ⟨80, _⟩ => ⟨S_, .f32⟩
  | .hbm, ⟨81, _⟩ => ⟨S65536x512, .f32⟩
  | .hbm, ⟨82, _⟩ => ⟨S65536x512, .f32⟩
  | .hbm, ⟨83, _⟩ => ⟨S65536x128, .f32⟩
  | .hbm, ⟨84, _⟩ => ⟨S1x128, .f32⟩
  | .hbm, ⟨85, _⟩ => ⟨S65536x128, .f32⟩
  | .hbm, ⟨86, _⟩ => ⟨S65536x128, .f32⟩
  | .hbm, ⟨87, _⟩ => ⟨S_, .f32⟩
  | .hbm, ⟨88, _⟩ => ⟨S65536, .f32⟩
  | .hbm, ⟨89, _⟩ => ⟨S_, .f32⟩
  | .hbm, ⟨90, _⟩ => ⟨S65536, .f32⟩
  | .hbm, ⟨91, _⟩ => ⟨S65536, .f32⟩
  | .hbm, ⟨92, _⟩ => ⟨S65536x1, .f32⟩
  | .hbm, ⟨93, _⟩ => ⟨S65536x128, .f32⟩
  | .hbm, ⟨94, _⟩ => ⟨S65536x128, .f32⟩
  | .hbm, ⟨95, _⟩ => ⟨S65536x128, .f32⟩
  | .hbm, ⟨96, _⟩ => ⟨S_, .f32⟩
  | .hbm, ⟨97, _⟩ => ⟨S65536, .f32⟩
  | .hbm, ⟨98, _⟩ => ⟨S65536x1, .f32⟩
  | .hbm, ⟨99, _⟩ => ⟨S65536x128, .f32⟩
  | .hbm, ⟨100, _⟩ => ⟨S65536x128, .f32⟩
  | _, _ => ⟨S65536x10x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call0_cst : Ref sig .tc := ⟨.hbm, 73, rfl⟩
abbrev main_call0_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S65536x10x5_S65536x10x1_0_0_0 : S65536x10x5.Slices ![0, 0, 0] S65536x10x1
  shapeCasts_S65536x10x1_S65536x10 : S65536x10x1.ShapeCasts S65536x10
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  slices_S65536x10x5_S65536x10x1_0_0_1 : S65536x10x5.Slices ![0, 0, 1] S65536x10x1
  slices_S65536x10x5_S65536x10x1_0_0_2 : S65536x10x5.Slices ![0, 0, 2] S65536x10x1
  slices_S65536x10x5_S65536x10x1_0_0_3 : S65536x10x5.Slices ![0, 0, 3] S65536x10x1
  slices_S65536x10x5_S65536x10x1_0_0_4 : S65536x10x5.Slices ![0, 0, 4] S65536x10x1
  concatenates_S65536x10x16_S65536x10x8_S65536x10x4_S65536x10x3_S65536x10x8_S65536x10x39_d2 : Shape.Concatenates [S65536x10x16, S65536x10x8, S65536x10x4, S65536x10x3, S65536x10x8] S65536x10x39 2
  shapeCasts_S65536x10x39_S65536x390 : S65536x10x39.ShapeCasts S65536x390
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S65536_d1 : S65536x128.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  gather_S10000x16_S65536x10x1_S65536x10x16_2_0_n_n_0_2_116_wf : GatherDims.WF S10000x16 S65536x10x1 S65536x10x16 [2] [0] [] [0] [] 2 ![1, 16]
  gather_S2000x8_S65536x10x1_S65536x10x8_2_0_n_n_0_2_18_wf : GatherDims.WF S2000x8 S65536x10x1 S65536x10x8 [2] [0] [] [0] [] 2 ![1, 8]
  gather_S1000x4_S65536x10x1_S65536x10x4_2_0_n_n_0_2_14_wf : GatherDims.WF S1000x4 S65536x10x1 S65536x10x4 [2] [0] [] [0] [] 2 ![1, 4]
  gather_S7x3_S65536x10x1_S65536x10x3_2_0_n_n_0_2_13_wf : GatherDims.WF S7x3 S65536x10x1 S65536x10x3 [2] [0] [] [0] [] 2 ![1, 3]
  gather_S1440x8_S65536x10x1_S65536x10x8_2_0_n_n_0_2_18_wf : GatherDims.WF S1440x8 S65536x10x1 S65536x10x8 [2] [0] [] [0] [] 2 ![1, 8]
  dot_S65536x390_S390x256_S65536x256_1_0_0_1_n_n_wf : DotDims.WF S65536x390 S390x256 S65536x256 [1] [0] [0] [1] [] []
  dot_S65536x256_S256x512_S65536x512_1_0_0_1_n_n_wf : DotDims.WF S65536x256 S256x512 S65536x512 [1] [0] [0] [1] [] []
  dot_S65536x512_S512x128_S65536x128_1_0_0_1_n_n_wf : DotDims.WF S65536x512 S512x128 S65536x128 [1] [0] [0] [1] [] []

variable [Facts₀]

def gather_S10000x16_S65536x10x1_S65536x10x16_2_0_n_n_0_2_116 : GatherDims S10000x16 S65536x10x1 S65536x10x16 where
  offsetDims := [2]
  collapsedSliceDims := [0]
  operandBatchingDims := []
  startIndicesBatchingDims := []
  startIndexMap := [0]
  indexVectorDim := 2
  sliceSizes := ![1, 16]
  wf := gather_S10000x16_S65536x10x1_S65536x10x16_2_0_n_n_0_2_116_wf
def gather_S2000x8_S65536x10x1_S65536x10x8_2_0_n_n_0_2_18 : GatherDims S2000x8 S65536x10x1 S65536x10x8 where
  offsetDims := [2]
  collapsedSliceDims := [0]
  operandBatchingDims := []
  startIndicesBatchingDims := []
  startIndexMap := [0]
  indexVectorDim := 2
  sliceSizes := ![1, 8]
  wf := gather_S2000x8_S65536x10x1_S65536x10x8_2_0_n_n_0_2_18_wf
def gather_S1000x4_S65536x10x1_S65536x10x4_2_0_n_n_0_2_14 : GatherDims S1000x4 S65536x10x1 S65536x10x4 where
  offsetDims := [2]
  collapsedSliceDims := [0]
  operandBatchingDims := []
  startIndicesBatchingDims := []
  startIndexMap := [0]
  indexVectorDim := 2
  sliceSizes := ![1, 4]
  wf := gather_S1000x4_S65536x10x1_S65536x10x4_2_0_n_n_0_2_14_wf
def gather_S7x3_S65536x10x1_S65536x10x3_2_0_n_n_0_2_13 : GatherDims S7x3 S65536x10x1 S65536x10x3 where
  offsetDims := [2]
  collapsedSliceDims := [0]
  operandBatchingDims := []
  startIndicesBatchingDims := []
  startIndexMap := [0]
  indexVectorDim := 2
  sliceSizes := ![1, 3]
  wf := gather_S7x3_S65536x10x1_S65536x10x3_2_0_n_n_0_2_13_wf
def gather_S1440x8_S65536x10x1_S65536x10x8_2_0_n_n_0_2_18 : GatherDims S1440x8 S65536x10x1 S65536x10x8 where
  offsetDims := [2]
  collapsedSliceDims := [0]
  operandBatchingDims := []
  startIndicesBatchingDims := []
  startIndexMap := [0]
  indexVectorDim := 2
  sliceSizes := ![1, 8]
  wf := gather_S1440x8_S65536x10x1_S65536x10x8_2_0_n_n_0_2_18_wf
def dot_S65536x390_S390x256_S65536x256_1_0_0_1_n_n : DotDims S65536x390 S390x256 S65536x256 where
  lhsContracting := [1]
  rhsContracting := [0]
  lhsNonContracting := [0]
  rhsNonContracting := [1]
  lhsBatch := []
  rhsBatch := []
  wf := dot_S65536x390_S390x256_S65536x256_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf

class Facts : Prop extends Facts₀ where

variable [Facts]
-- ==== Proof.KernelFrame.lean ====
/-
  The frame of the program: @main is fifty-seven host operations (five table look-ups joined along the feature
  axis and flattened to one row of 390 features per sample), then one launch of the dense kernel over a grid of
  32 points, each point taking 2048 rows of features and the three weight matrices and bias vectors whole.

  What is shown here, at any float family: the host operations write only their own result buffers, so the
  twelve argument arrays are found by the launch as they were passed; at every grid point the kernel body reads
  its seven input blocks, reads the output block's old contents without using them, and overwrites the whole
  output block with one function of the seven inputs; the input blocks are left as they were. From these the
  launch theorem gives that every weakly fair execution ends without a fault, with the argument arrays
  unchanged and the result array holding, block by block, what the points wrote.
-/
import proofs.«132427_j87703232184483_1_alg».proof.Proof.Gen.Kernel.Launch
import proofs.«132427_j87703232184483_1_alg».proof.Proof.Gen.Kernel.Skeleton
import proofs.«132427_j87703232184483_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What each buffer of core `c` holds when the launch is reached: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes one buffer, its result, and no result buffer is an argument: the arguments are
    found as they were passed. -/

set_option maxHeartbeats 1000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether the block was fetched at that point
    or kept from the point before (the weights and biases are fetched once: their block index never moves). -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From the launch theorem's post to the frame claim's -/

/-- The six weight and bias arrays are staged inputs, whose arrays end as found; the index array and the five
    tables are staged by no window, and every such buffer ends as found too. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 1).trans (((dats 0 c).arrAt_in 1 rfl _).trans ((hA c 1).trans (V_main_arg6 m c))),
    ((h c).1 2).trans (((dats 0 c).arrAt_in 2 rfl _).trans ((hA c 2).trans (V_main_arg7 m c))),
    ((h c).1 3).trans (((dats 0 c).arrAt_in 3 rfl _).trans ((hA c 3).trans (V_main_arg8 m c))),
    ((h c).1 4).trans (((dats 0 c).arrAt_in 4 rfl _).trans ((hA c 4).trans (V_main_arg9 m c))),
    ((h c).1 5).trans (((dats 0 c).arrAt_in 5 rfl _).trans ((hA c 5).trans (V_main_arg10 m c))),
    ((h c).1 6).trans (((dats 0 c).arrAt_in 6 rfl _).trans ((hA c 6).trans (V_main_arg11 m c)))⟩

/-- So a run to the launch theorem's post is a run to the frame claim's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_of_post m dats hA r h c) h

/-! ## What the body reads and writes -/

/-- Each access is of a whole buffer. -/
abbrev rIn0 : Rect S2048x390 := Rect.unit (s := S2048x390) ![0, 0] S2048x390.size inb_S2048x390_S2048x390_0_0
abbrev rIn1 : Rect S390x256 := Rect.unit (s := S390x256) ![0, 0] S390x256.size inb_S390x256_S390x256_0_0
abbrev rIn2 : Rect S256 := Rect.unit (s := S256) ![0] S256.size inb_S256_S256_0
abbrev rIn3 : Rect S256x512 := Rect.unit (s := S256x512) ![0, 0] S256x512.size inb_S256x512_S256x512_0_0
abbrev rIn4 : Rect S512 := Rect.unit (s := S512) ![0] S512.size inb_S512_S512_0
abbrev rIn5 : Rect S512x128 := Rect.unit (s := S512x128) ![0, 0] S512x128.size inb_S512x128_S512x128_0_0
abbrev rIn6 : Rect S128 := Rect.unit (s := S128) ![0] S128.size inb_S128_S128_0
abbrev rOut : Rect S2048x128 := Rect.unit (s := S2048x128) ![0, 0] S2048x128.size inb_S2048x128_S2048x128_0_0

/-- The output block after the body, from the seven input blocks: the one store's value (the exponentials over
    their row sums), laid over the whole block. -/
def outBlk (x0 : Vec F S2048x390 .f32) (x1 : Vec F S390x256 .f32) (x2 : Vec F S256 .f32) (x3 : Vec F S256x512 .f32)
    (x4 : Vec F S512 .f32) (x5 : Vec F S512x128 .f32) (x6 : Vec F S128 .f32) : Vec F S2048x128 .f32 :=
  View.canon [⟨rOut, k0_pay1
    (k0_pay2 (View.ld x0 rIn0) (View.ld x1 rIn1) (View.ld x2 rIn2) (View.ld x3 rIn3) (View.ld x4 rIn4) (View.ld x5 rIn5) (View.ld x6 rIn6))
    (k0_pay3 (View.ld x0 rIn0) (View.ld x1 rIn1) (View.ld x2 rIn2) (View.ld x3 rIn3) (View.ld x4 rIn4) (View.ld x5 rIn5) (View.ld x6 rIn6))⟩]

/-- The one store covers the block. -/
theorem cover_out (p0 : Vec F S2048x128 .f32) (y : S2048x128.Idx) :
    ∃ pc ∈ ([⟨rOut, p0⟩] : List (View.Piece (Elt F) S2048x128 .f32)), y ∈ pc.1.set :=
  View.cover_of_tiled [⟨rOut, p0⟩] S2048x128.size (by rfl) y

/-! ## The body's triple -/

set_option maxHeartbeats 4000000 in
/-- On whole staging buffers, the seven inputs at `x0 … x6` and the output at anything, the body runs to the end,
    leaves the inputs as they were and the output at `outBlk` of them. -/
theorem sound_kernel (c : Dev nD) (E : Set ℕ) (i : grid0.Coords)
    (arg1 : Memref sig .tc .vmem S2048x390 .f32) (harg1 : arg1.IsWhole) (arg2 : Memref sig .tc .vmem S390x256 .f32) (harg2 : arg2.IsWhole)
    (arg3 : Memref sig .tc .vmem S256 .f32) (harg3 : arg3.IsWhole) (arg4 : Memref sig .tc .vmem S256x512 .f32) (harg4 : arg4.IsWhole)
    (arg5 : Memref sig .tc .vmem S512 .f32) (harg5 : arg5.IsWhole) (arg6 : Memref sig .tc .vmem S512x128 .f32) (harg6 : arg6.IsWhole)
    (arg7 : Memref sig .tc .vmem S128 .f32) (harg7 : arg7.IsWhole) (arg8 : Memref sig .tc .vmem S2048x128 .f32) (harg8 : arg8.IsWhole)
    (x0 : Vec F S2048x390 .f32) (x1 : Vec F S390x256 .f32) (x2 : Vec F S256 .f32) (x3 : Vec F S256x512 .f32)
    (x4 : Vec F S512 .f32) (x5 : Vec F S512x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The launch's proof data -/

/-- On core `c`: the arrays as the launch finds them; after the body at point `t` each input's buffer at its block
    and the output's at `outBlk` of the input blocks; nothing else is touched, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t
    = outBlk (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main ends, with every window's array at
    what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Fr

end
-- ==== Proof.KernelIdealFrame.lean ====
/-
  The frame of the program: @main is fifty-seven host operations (five table look-ups joined along the feature
  axis and flattened to one row of 390 features per sample), then one launch of the dense kernel over a grid of
  32 points, each point taking 2048 rows of features and the three weight matrices and bias vectors whole.

  What is shown here, at any float family: the host operations write only their own result buffers, so the
  twelve argument arrays are found by the launch as they were passed; at every grid point the kernel body reads
  its seven input blocks, reads the output block's old contents without using them, and overwrites the whole
  output block with one function of the seven inputs; the input blocks are left as they were. From these the
  launch theorem gives that every weakly fair execution ends without a fault, with the argument arrays
  unchanged and the result array holding, block by block, what the points wrote.
-/
import proofs.«132427_j87703232184483_1_alg».proof.Proof.Gen.KernelIdeal.Launch
import proofs.«132427_j87703232184483_1_alg».proof.Proof.Gen.KernelIdeal.Skeleton
import proofs.«132427_j87703232184483_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What each buffer of core `c` holds when the launch is reached: the launch memory after the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes one buffer, its result, and no result buffer is an argument: the arguments are
    found as they were passed. -/

set_option maxHeartbeats 1000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1000000 in
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether the block was fetched at that point
    or kept from the point before (the weights and biases are fetched once: their block index never moves). -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## From the launch theorem's post to the frame claim's -/

/-- The six weight and bias arrays are staged inputs, whose arrays end as found; the index array and the five
    tables are staged by no window, and every such buffer ends as found too. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 1).trans (((dats 0 c).arrAt_in 1 rfl _).trans ((hA c 1).trans (V_main_arg6 m c))),
    ((h c).1 2).trans (((dats 0 c).arrAt_in 2 rfl _).trans ((hA c 2).trans (V_main_arg7 m c))),
    ((h c).1 3).trans (((dats 0 c).arrAt_in 3 rfl _).trans ((hA c 3).trans (V_main_arg8 m c))),
    ((h c).1 4).trans (((dats 0 c).arrAt_in 4 rfl _).trans ((hA c 4).trans (V_main_arg9 m c))),
    ((h c).1 5).trans (((dats 0 c).arrAt_in 5 rfl _).trans ((hA c 5).trans (V_main_arg10 m c))),
    ((h c).1 6).trans (((dats 0 c).arrAt_in 6 rfl _).trans ((hA c 6).trans (V_main_arg11 m c)))⟩

/-- So a run to the launch theorem's post is a run to the frame claim's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_of_post m dats hA r h c) h

/-! ## What the body reads and writes -/

/-- Each access is of a whole buffer. -/
abbrev rIn0 : Rect S2048x390 := Rect.unit (s := S2048x390) ![0, 0] S2048x390.size inb_S2048x390_S2048x390_0_0
abbrev rIn1 : Rect S390x256 := Rect.unit (s := S390x256) ![0, 0] S390x256.size inb_S390x256_S390x256_0_0
abbrev rIn2 : Rect S256 := Rect.unit (s := S256) ![0] S256.size inb_S256_S256_0
abbrev rIn3 : Rect S256x512 := Rect.unit (s := S256x512) ![0, 0] S256x512.size inb_S256x512_S256x512_0_0
abbrev rIn4 : Rect S512 := Rect.unit (s := S512) ![0] S512.size inb_S512_S512_0
abbrev rIn5 : Rect S512x128 := Rect.unit (s := S512x128) ![0, 0] S512x128.size inb_S512x128_S512x128_0_0
abbrev rIn6 : Rect S128 := Rect.unit (s := S128) ![0] S128.size inb_S128_S128_0
abbrev rOut : Rect S2048x128 := Rect.unit (s := S2048x128) ![0, 0] S2048x128.size inb_S2048x128_S2048x128_0_0

/-- The output block after the body, from the seven input blocks: the one store's value (the exponentials over
    their row sums), laid over the whole block. -/
def outBlk (x0 : Vec F S2048x390 .f32) (x1 : Vec F S390x256 .f32) (x2 : Vec F S256 .f32) (x3 : Vec F S256x512 .f32)
    (x4 : Vec F S512 .f32) (x5 : Vec F S512x128 .f32) (x6 : Vec F S128 .f32) : Vec F S2048x128 .f32 :=
  View.canon [⟨rOut, k0_pay1
    (k0_pay2 (View.ld x0 rIn0) (View.ld x1 rIn1) (View.ld x2 rIn2) (View.ld x3 rIn3) (View.ld x4 rIn4) (View.ld x5 rIn5) (View.ld x6 rIn6))
    (k0_pay3 (View.ld x0 rIn0) (View.ld x1 rIn1) (View.ld x2 rIn2) (View.ld x3 rIn3) (View.ld x4 rIn4) (View.ld x5 rIn5) (View.ld x6 rIn6))⟩]

/-- The one store covers the block. -/
theorem cover_out (p0 : Vec F S2048x128 .f32) (y : S2048x128.Idx) :
    ∃ pc ∈ ([⟨rOut, p0⟩] : List (View.Piece (Elt F) S2048x128 .f32)), y ∈ pc.1.set :=
  View.cover_of_tiled [⟨rOut, p0⟩] S2048x128.size (by rfl) y

/-! ## The body's triple -/

set_option maxHeartbeats 4000000 in
/-- On whole staging buffers, the seven inputs at `x0 … x6` and the output at anything, the body runs to the end,
    leaves the inputs as they were and the output at `outBlk` of them. -/
theorem sound_kernel (c : Dev nD) (E : Set ℕ) (i : grid0.Coords)
    (arg1 : Memref sig .tc .vmem S2048x390 .f32) (harg1 : arg1.IsWhole) (arg2 : Memref sig .tc .vmem S390x256 .f32) (harg2 : arg2.IsWhole)
    (arg3 : Memref sig .tc .vmem S256 .f32) (harg3 : arg3.IsWhole) (arg4 : Memref sig .tc .vmem S256x512 .f32) (harg4 : arg4.IsWhole)
    (arg5 : Memref sig .tc .vmem S512 .f32) (harg5 : arg5.IsWhole) (arg6 : Memref sig .tc .vmem S512x128 .f32) (harg6 : arg6.IsWhole)
    (arg7 : Memref sig .tc .vmem S128 .f32) (harg7 : arg7.IsWhole) (arg8 : Memref sig .tc .vmem S2048x128 .f32) (harg8 : arg8.IsWhole)
    (x0 : Vec F S2048x390 .f32) (x1 : Vec F S390x256 .f32) (x2 : Vec F S256 .f32) (x3 : Vec F S256x512 .f32)
    (x4 : Vec F S512 .f32) (x5 : Vec F S512x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The launch's proof data -/

/-- On core `c`: the arrays as the launch finds them; after the body at point `t` each input's buffer at its block
    and the output's at `outBlk` of the input blocks; nothing else is touched, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t
    = outBlk (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main ends, with every window's array at
    what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Fr

end
-- ==== Proof.MlpSpec.lean ====
/-
  The function both programs compute, one sample at a time, on the extended reals.

  A sample is a row `x` of 390 features. With weight matrices `W1` (390×256), `W2` (256×512), `W3` (512×128) and
  bias vectors `b1`, `b2`, `b3`:
    h1 a  = max (∑ k, x k · W1 k a + b1 a) 0
    h2 a  = max (∑ k, h1 k · W2 k a + b2 a) 0
    z a   = ∑ k, h2 k · W3 k a + b3 a
    μ     = max (−∞) (the maximum of z over its 128 entries, taken from −∞)
    e a   = exp (z a − μ)
    out a = e a / ∑ a', e a'
  The zero and −∞ are kept as the float words the programs spell them with; nothing here evaluates them.
  The whole result, for a feature array `X` of 65536 rows, is row `r`'s `out` at every row.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float word of zero, read on the extended reals. -/
abbrev zeroW : EReal := Ideal.ofBits .f32 0x00000000#32
/-- The float word of −∞, read on the extended reals. -/
abbrev negInfW : EReal := Ideal.ofBits .f32 0xFF800000#32

section Row

variable (W1 : (⟨2, ![390, 256]⟩ : Shape).Idx → EReal) (b1 : (⟨1, ![256]⟩ : Shape).Idx → EReal)
  (W2 : (⟨2, ![256, 512]⟩ : Shape).Idx → EReal) (b2 : (⟨1, ![512]⟩ : Shape).Idx → EReal)
  (W3 : (⟨2, ![512, 128]⟩ : Shape).Idx → EReal) (b3 : (⟨1, ![128]⟩ : Shape).Idx → EReal)
  (x : Fin 390 → EReal)

/-- First hidden layer of one sample. -/
def hidden1 (a : Fin 256) : EReal := max (∑ k : Fin 390, x k * W1 (ix2 k a) + b1 (ix1 a)) zeroW

/-- Second hidden layer. -/
def hidden2 (a : Fin 512) : EReal := max (∑ k : Fin 256, hidden1 W1 b1 x k * W2 (ix2 k a) + b2 (ix1 a)) zeroW

/-- The logits. -/
def logit (a : Fin 128) : EReal := ∑ k : Fin 512, hidden2 W1 b1 W2 b2 x k * W3 (ix2 k a) + b3 (ix1 a)

/-- The largest logit, folded from −∞ and then compared with −∞ once more (both programs do both). -/
def rowMax : EReal :=
  max negInfW ((Finset.univ : Finset (Fin 128)).fold max negInfW (logit W1 b1 W2 b2 W3 b3 x))

/-- The shifted exponentials. -/
def expd (a : Fin 128) : EReal := Ideal.exp (logit W1 b1 W2 b2 W3 b3 x a - rowMax W1 b1 W2 b2 W3 b3 x)

/-- The sample's softmax. -/
def rowOut (a : Fin 128) : EReal :=
  Ideal.div (expd W1 b1 W2 b2 W3 b3 x a) (∑ a' : Fin 128, expd W1 b1 W2 b2 W3 b3 x a')

end Row

/-- The whole result: row `i 0` of the features through the network, at class `i 1`. -/
def G (X : (⟨2, ![65536, 390]⟩ : Shape).Idx → EReal)
    (W1 : (⟨2, ![390, 256]⟩ : Shape).Idx → EReal) (b1 : (⟨1, ![256]⟩ : Shape).Idx → EReal)
    (W2 : (⟨2, ![256, 512]⟩ : Shape).Idx → EReal) (b2 : (⟨1, ![512]⟩ : Shape).Idx → EReal)
    (W3 : (⟨2, ![512, 128]⟩ : Shape).Idx → EReal) (b3 : (⟨1, ![128]⟩ : Shape).Idx → EReal) :
    (⟨2, ![65536, 128]⟩ : Shape).Idx → EReal :=
  fun i => rowOut W1 b1 W2 b2 W3 b3 (fun k => X (ix2 (i 0) k)) (i 1)

end Cert.Spec

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KernelIdealBlock.lean ====
/-
  What the kernel body leaves in its output block, read at row `p` and class `q`: the softmax of the network's
  logits for the block's row `p`, as the specification states it for one sample.

  The body's value is a tree of vector operations over the seven loaded blocks. Read at an index: a rounding to
  bf16 is the identity on the extended reals; a matrix product into a zero accumulator is the sum over the shared
  coordinate; a bias cast to one row and repeated down the rows reads the bias at the column; a row maximum and a
  row sum, kept as a one-column array and repeated across the columns, read the fold and the sum over the row's
  128 entries.
-/
import proofs.«132427_j87703232184483_1_alg».proof.Proof.KernelIdealFrame
import proofs.«132427_j87703232184483_1_alg».proof.Proof.MlpSpec
import proofs.«132427_j87703232184483_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Cert.KernelIdeal Cert.KernelIdeal.Gen Cert.KernelIdeal.Fr
open Idealize.ShloMosaic Idealize.ShloMosaic.TcCoe Idealize.ShloMosaic.ValueIdx Idealize.ShloMosaic.Keepdims

/-! ### Layer 1: a 2048×390 block times a 390×256 matrix -/

theorem lhs1_0 (i : S2048x256.Idx) (q : dot_S2048x390_S390x256_S2048x256_1_0_0_1_n_n.contr.Idx) :
    (dot_S2048x390_S390x256_S2048x256_1_0_0_1_n_n.lhsIdx i q 0).val = (i 0).val := by
  unfold DotDims.lhsIdx
  rw [dif_neg (show ¬(0 : Fin S2048x390.rank) ∈ dot_S2048x390_S390x256_S2048x256_1_0_0_1_n_n.lhsBatch by decide), dif_pos (show (0 : Fin S2048x390.rank) ∈ dot_S2048x390_S390x256_S2048x256_1_0_0_1_n_n.lhsNonContracting by decide)]
  rfl
theorem lhs1_1 (i : S2048x256.Idx) (q : dot_S2048x390_S390x256_S2048x256_1_0_0_1_n_n.contr.Idx) :
    (dot_S2048x390_S390x256_S2048x256_1_0_0_1_n_n.lhsIdx i q 1).val = (q ⟨0, by decide⟩).val :=
  dot_S2048x390_S390x256_S2048x256_1_0_0_1_n_n.lhsIdx_val_of_single rfl i q
theorem rhs1_0 (i : S2048x256.Idx) (q : dot_S2048x390_S390x256_S2048x256_1_0_0_1_n_n.contr.Idx) :
    (dot_S2048x390_S390x256_S2048x256_1_0_0_1_n_n.rhsIdx i q 0).val = (q ⟨0, by decide⟩).val :=
  dot_S2048x390_S390x256_S2048x256_1_0_0_1_n_n.rhsIdx_val_of_single rfl i q
theorem rhs1_1 (i : S2048x256.Idx) (q : dot_S2048x390_S390x256_S2048x256_1_0_0_1_n_n.contr.Idx) :
    (dot_S2048x390_S390x256_S2048x256_1_0_0_1_n_n.rhsIdx i q 1).val = (i 1).val := by
  unfold DotDims.rhsIdx
  rw [dif_neg (show ¬(1 : Fin S390x256.rank) ∈ dot_S2048x390_S390x256_S2048x256_1_0_0_1_n_n.rhsBatch by decide), dif_pos (show (1 : Fin S390x256.rank) ∈ dot_S2048x390_S390x256_S2048x256_1_0_0_1_n_n.rhsNonContracting by decide)]
  rfl

/-- The matrix product into a zero accumulator, at row `p` and column `a`: the sum over the 390 shared coordinates. -/
theorem matmul1_apply (l : FVec Ideal S2048x390 .bf16) (r : FVec Ideal S390x256 .bf16) (p : Fin 2048) (a : Fin 256) :
    matmul dot_S2048x390_S390x256_S2048x256_1_0_0_1_n_n none l r (constant S2048x256 .f32 0x00000000#32) (ix2 p a)
      = ∑ k : Fin 390, l (ix2 p k) * r (ix2 k a) := by
  simp only [matmul]
  rw [Ideal.matmul_constant_zero_apply, ← Equiv.sum_comp (contrEquiv1 dot_S2048x390_S390x256_S2048x256_1_0_0_1_n_n 390 rfl rfl).symm]
  refine Finset.sum_congr rfl fun k _ => ?_
  have hk := contrEquiv1_symm_val dot_S2048x390_S390x256_S2048x256_1_0_0_1_n_n 390 rfl rfl k
  have el : dot_S2048x390_S390x256_S2048x256_1_0_0_1_n_n.lhsIdx (ix2 p a) ((contrEquiv1 dot_S2048x390_S390x256_S2048x256_1_0_0_1_n_n 390 rfl rfl).symm k) = ix2 p k := funext fun ax => Fin.ext (by
    match ax with
    | ⟨0, _⟩ => exact lhs1_0 _ _
    | ⟨1, _⟩ => exact (lhs1_1 _ _).trans hk)
  have er : dot_S2048x390_S390x256_S2048x256_1_0_0_1_n_n.rhsIdx (ix2 p a) ((contrEquiv1 dot_S2048x390_S390x256_S2048x256_1_0_0_1_n_n 390 rfl rfl).symm k) = ix2 k a := funext fun ax => Fin.ext (by
    match ax with
    | ⟨0, _⟩ => exact (rhs1_0 _ _).trans hk
    | ⟨1, _⟩ => exact rhs1_1 _ _)
  rw [el, er]

/-- The layer before its rectifier: the product plus the bias row, the bias the same down every row. -/
theorem dense1_apply (X : FVec Ideal S2048x390 .f32) (W : Vec Ideal S390x256 .f32) (b : Vec Ideal S256 .f32) (p : Fin 2048) (a : Fin 256) :
    addf (matmul dot_S2048x390_S390x256_S2048x256_1_0_0_1_n_n none (truncf .bf16 X bitsLt_bf16_f32) (truncf .bf16 W bitsLt_bf16_f32) (constant S2048x256 .f32 0x00000000#32))
        (broadcastTo S2048x256 (shapeCast S1x256 b shapeCasts_S256_S1x256) broadcasts_S1x256_S2048x256) (ix2 p a)
      = ∑ k : Fin 390, X (ix2 p k) * W (ix2 k a) + b (ix1 a) := by
  rw [addf_apply, matmul1_apply, broadcastTo_1b_ab_apply, shapeCast_a_1a_apply]
  rfl

/-! ### Layer 2: a 2048×256 block times a 256×512 matrix -/

theorem lhs2_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs2_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs2_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs2_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The matrix product into a zero accumulator, at row `p` and column `a`: the sum over the 256 shared coordinates. -/
theorem matmul2_apply (l : FVec Ideal S2048x256 .bf16) (r : FVec Ideal S256x512 .bf16) (p : Fin 2048) (a : Fin 512) :
    matmul dot_S2048x256_S256x512_S2048x512_1_0_0_1_n_n none l r (constant S2048x512 .f32 0x00000000#32) (ix2 p a)
      = ∑ k : Fin 256, l (ix2 p k) * r (ix2 k a) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p a) ((contrEquiv1 dot_S2048x256_S256x512_S2048x512_1_0_0_1_n_n 256 rfl rfl).symm k) = ix2 p k := funext fun ax => Fin.ext (by
    match ax with
    | ⟨0, _⟩ => exact lhs2_0 _ _
    | ⟨1, _⟩ => exact (lhs2_1 _ _).trans hk)
  have er : dot_S2048x256_S256x512_S2048x512_1_0_0_1_n_n.rhsIdx (ix2 p a) ((contrEquiv1 dot_S2048x256_S256x512_S2048x512_1_0_0_1_n_n 256 rfl rfl).symm k) = ix2 k a := funext fun ax => Fin.ext (by
    match ax with
    | ⟨0, _⟩ => exact (rhs2_0 _ _).trans hk
    | ⟨1, _⟩ => exact rhs2_1 _ _)
  rw [el, er]

/-- The layer before its rectifier: the product plus the bias row, the bias the same down every row. -/
theorem dense2_apply (X : FVec Ideal S2048x256 .f32) (W : Vec Ideal S256x512 .f32) (b : Vec Ideal S512 .f32) (p : Fin 2048) (a : Fin 512) :
    addf (matmul dot_S2048x256_S256x512_S2048x512_1_0_0_1_n_n none (truncf .bf16 X bitsLt_bf16_f32) (truncf .bf16 W bitsLt_bf16_f32) (constant S2048x512 .f32 0x00000000#32))
        (broadcastTo S2048x512 (shapeCast S1x512 b shapeCasts_S512_S1x512) broadcasts_S1x512_S2048x512) (ix2 p a)
      = ∑ k : Fin 256, X (ix2 p k) * W (ix2 k a) + b (ix1 a) := by
  rw [addf_apply, matmul2_apply, broadcastTo_1b_ab_apply, shapeCast_a_1a_apply]
  rfl

/-! ### Layer 3: a 2048×512 block times a 512×128 matrix -/

theorem lhs3_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs3_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhs3_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhs3_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The matrix product into a zero accumulator, at row `p` and column `a`: the sum over the 512 shared coordinates. -/
theorem matmul3_apply (l : FVec Ideal S2048x512 .bf16) (r : FVec Ideal S512x128 .bf16) (p : Fin 2048) (a : Fin 128) :
    matmul dot_S2048x512_S512x128_S2048x128_1_0_0_1_n_n none l r (constant S2048x128 .f32 0x00000000#32) (ix2 p a)
      = ∑ k : Fin 512, l (ix2 p k) * r (ix2 k a) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p a) ((contrEquiv1 dot_S2048x512_S512x128_S2048x128_1_0_0_1_n_n 512 rfl rfl).symm k) = ix2 p k := funext fun ax => Fin.ext (by
    match ax with
    | ⟨0, _⟩ => exact lhs3_0 _ _
    | ⟨1, _⟩ => exact (lhs3_1 _ _).trans hk)
  have er : dot_S2048x512_S512x128_S2048x128_1_0_0_1_n_n.rhsIdx (ix2 p a) ((contrEquiv1 dot_S2048x512_S512x128_S2048x128_1_0_0_1_n_n 512 rfl rfl).symm k) = ix2 k a := funext fun ax => Fin.ext (by
    match ax with
    | ⟨0, _⟩ => exact (rhs3_0 _ _).trans hk
    | ⟨1, _⟩ => exact rhs3_1 _ _)
  rw [el, er]

/-- The layer before its rectifier: the product plus the bias row, the bias the same down every row. -/
theorem dense3_apply (X : FVec Ideal S2048x512 .f32) (W : Vec Ideal S512x128 .f32) (b : Vec Ideal S128 .f32) (p : Fin 2048) (a : Fin 128) :
    addf (matmul dot_S2048x512_S512x128_S2048x128_1_0_0_1_n_n none (truncf .bf16 X bitsLt_bf16_f32) (truncf .bf16 W bitsLt_bf16_f32) (constant S2048x128 .f32 0x00000000#32))
        (broadcastTo S2048x128 (shapeCast S1x128 b shapeCasts_S128_S1x128) broadcasts_S1x128_S2048x128) (ix2 p a)
      = ∑ k : Fin 512, X (ix2 p k) * W (ix2 k a) + b (ix1 a) := by
  rw [addf_apply, matmul3_apply, broadcastTo_1b_ab_apply, shapeCast_a_1a_apply]
  rfl

/-! ## The three layers of a block -/

section Layers

variable (x0 : Vec Ideal S2048x390 .f32) (x1 : Vec Ideal S390x256 .f32) (x2 : Vec Ideal S256 .f32) (x3 : Vec Ideal S256x512 .f32)
    (x4 : Vec Ideal S512 .f32) (x5 : Vec Ideal S512x128 .f32) (x6 : Vec Ideal S128 .f32)

/-- The block's first hidden layer, as the body computes it. -/
def kHidden1 : FVec Ideal S2048x256 .f32 :=
  maximumf (addf (matmul dot_S2048x390_S390x256_S2048x256_1_0_0_1_n_n none
      (truncf .bf16 (shapeCast S2048x390 x0 shapeCasts_S2048x390_S2048x390) bitsLt_bf16_f32) (truncf .bf16 x1 bitsLt_bf16_f32)
      (constant S2048x256 .f32 0x00000000#32))
    (broadcastTo S2048x256 (shapeCast S1x256 x2 shapeCasts_S256_S1x256) broadcasts_S1x256_S2048x256))
    (broadcast S2048x256 (FloatOps.ofBits .f32 0x00000000#32))

/-- The block's second hidden layer. -/
def kHidden2 : FVec Ideal S2048x512 .f32 :=
  maximumf (addf (matmul dot_S2048x256_S256x512_S2048x512_1_0_0_1_n_n none
      (truncf .bf16 (kHidden1 x0 x1 x2) bitsLt_bf16_f32) (truncf .bf16 x3 bitsLt_bf16_f32)
      (constant S2048x512 .f32 0x00000000#32))
    (broadcastTo S2048x512 (shapeCast S1x512 x4 shapeCasts_S512_S1x512) broadcasts_S1x512_S2048x512))
    (broadcast S2048x512 (FloatOps.ofBits .f32 0x00000000#32))

/-- The block's logits. -/
def kLogit : FVec Ideal S2048x128 .f32 :=
  addf (matmul dot_S2048x512_S512x128_S2048x128_1_0_0_1_n_n none
      (truncf .bf16 (kHidden2 x0 x1 x2 x3 x4) bitsLt_bf16_f32) (truncf .bf16 x5 bitsLt_bf16_f32)
      (constant S2048x128 .f32 0x00000000#32))
    (broadcastTo S2048x128 (shapeCast S1x128 x6 shapeCasts_S128_S1x128) broadcasts_S1x128_S2048x128)

/-- Row `p` of the first hidden layer is the sample's, for the sample in row `p` of the feature block. -/
theorem kHidden1_apply (p : Fin 2048) (a : Fin 256) :
    kHidden1 x0 x1 x2 (ix2 p a) = Spec.hidden1 x1 x2 (fun k => x0 (ix2 p k)) a := by
  unfold kHidden1 Spec.hidden1
  rw [maximumf_apply, dense1_apply, shapeCast_self]
  rfl

theorem kHidden2_apply (p : Fin 2048) (a : Fin 512) :
    kHidden2 x0 x1 x2 x3 x4 (ix2 p a) = Spec.hidden2 x1 x2 x3 x4 (fun k => x0 (ix2 p k)) a := by
  unfold kHidden2 Spec.hidden2
  rw [maximumf_apply, dense2_apply]
  simp only [kHidden1_apply]
  rfl

theorem kLogit_apply (p : Fin 2048) (a : Fin 128) :
    kLogit x0 x1 x2 x3 x4 x5 x6 (ix2 p a) = Spec.logit x1 x2 x3 x4 x5 x6 (fun k => x0 (ix2 p k)) a := by
  unfold kLogit Spec.logit
  rw [dense3_apply]
  simp only [kHidden2_apply]

/-! ## Rows of the logits block: the maximum, the exponentials, their sum -/

/-- The exponential of a vector, read at an index. -/
theorem exp_apply {s : Shape} {φ : FTy} (v : FVec Ideal s φ) (i : s.Idx) : exp v i = Ideal.exp (v i) := rfl

/-- In a reduction of a 2048×128 block along its rows, the source index of row `p` at position `k` is `(p, k)`. -/
theorem lift_row (h : S2048x128.Reduces [1] S2048) (p : Fin 2048) (k : Fin (S2048x128.size 1)) :
    h.lift (ix1 p) k = ix2 p (⟨k.val, k.isLt⟩ : Fin 128) := by
  funext c; apply Fin.ext
  fin_cases c <;> rfl

/-- The row maximum the body shifts by: the fold of `max` over the row from −∞, compared with −∞ once more. -/
theorem kRowMax_apply (hφ : FKind.Formats .f32) (hacc : (0xFF800000#32 : BitVec 32) = FKind.maximumf.neutral .f32 hφ) (p : Fin 2048) :
    maximumf (broadcast S2048 (FloatOps.ofBits .f32 0xFF800000#32))
        (multiReduction .maximumf [1] S2048 (kLogit x0 x1 x2 x3 x4 x5 x6) 0xFF800000#32 reduces_S2048x128_S2048 hφ hacc) (ix1 p)
      = Spec.rowMax x1 x2 x3 x4 x5 x6 (fun k => x0 (ix2 p k)) := by
  rw [maximumf_apply, Ideal.multiReduction_maximumf_single]
  unfold Spec.rowMax
  have hf : (kLogit x0 x1 x2 x3 x4 x5 x6 ∘ reduces_S2048x128_S2048.lift (ix1 p))
      = Spec.logit x1 x2 x3 x4 x5 x6 (fun k => x0 (ix2 p k)) := funext fun k => by
    show kLogit x0 x1 x2 x3 x4 x5 x6 (reduces_S2048x128_S2048.lift (ix1 p) k) = _
    rw [lift_row, kLogit_apply]
    rfl
  rw [hf]
  rfl

/-- The body's first payload, the shifted exponentials, is this tree over the logits. -/
theorem pay_exp_eq : k0_pay2 x0 x1 x2 x3 x4 x5 x6
    = exp (subf (kLogit x0 x1 x2 x3 x4 x5 x6) (broadcastTo S2048x128 (shapeCast S2048x1
        (maximumf (broadcast S2048 (FloatOps.ofBits .f32 0xFF800000#32))
          (multiReduction .maximumf [1] S2048 (kLogit x0 x1 x2 x3 x4 x5 x6) 0xFF800000#32 reduces_S2048x128_S2048 (.inl rfl) rfl))
        shapeCasts_S2048_S2048x1) broadcasts_S2048x1_S2048x128)) := rfl

theorem pay_exp_apply (p : Fin 2048) (q : Fin 128) :
    k0_pay2 x0 x1 x2 x3 x4 x5 x6 (ix2 p q) = Spec.expd x1 x2 x3 x4 x5 x6 (fun k => x0 (ix2 p k)) q := by
  rw [pay_exp_eq, exp_apply, subf_apply, broadcastTo_a1_ab_apply, shapeCast_a_a1_apply]
  exact congrArg Ideal.exp (congrArg₂ (· - ·) (kLogit_apply x0 x1 x2 x3 x4 x5 x6 p q) (kRowMax_apply x0 x1 x2 x3 x4 x5 x6 _ _ p))

/-- The row sum of the exponentials. -/
theorem kRowSum_apply (hφ : FKind.Formats .f32) (hacc : (0x00000000#32 : BitVec 32) = FKind.add.neutral .f32 hφ) (p : Fin 2048) :
    multiReduction .add [1] S2048 (k0_pay2 x0 x1 x2 x3 x4 x5 x6) 0x00000000#32 reduces_S2048x128_S2048 hφ hacc (ix1 p)
      = ∑ a : Fin 128, Spec.expd x1 x2 x3 x4 x5 x6 (fun k => x0 (ix2 p k)) a := by
  rw [Ideal.multiReduction_add_single]
  refine Finset.sum_congr rfl fun k _ => ?_
  rw [lift_row, pay_exp_apply]
  rfl

/-! ## The output block -/

theorem zeros2 : (![0, 0] : Fin 2 → Nat) = fun _ => 0 := funext fun a => by fin_cases a <;> rfl
theorem zeros1 : (![0] : Fin 1 → Nat) = fun _ => 0 := funext fun a => by fin_cases a <;> rfl

/-- THE BLOCK: at row `p` and class `q` the body leaves the softmax of the sample in row `p` of the feature block. -/
theorem outBlk_apply (p : Fin 2048) (q : Fin 128) :
    outBlk x0 x1 x2 x3 x4 x5 x6 (ix2 p q) = Spec.rowOut x1 x2 x3 x4 x5 x6 (fun k => x0 (ix2 p k)) q := by
  unfold outBlk
  rw [View.canon_unit_zero zeros2]
  simp only [View.ld_unit_zero (S := S2048x390) zeros2, View.ld_unit_zero (S := S390x256) zeros2, View.ld_unit_zero (S := S256) zeros1,
    View.ld_unit_zero (S := S256x512) zeros2, View.ld_unit_zero (S := S512) zeros1, View.ld_unit_zero (S := S512x128) zeros2,
    View.ld_unit_zero (S := S128) zeros1]
  unfold k0_pay1 k0_pay3
  dsimp only
  rw [divf_apply, broadcastTo_a1_ab_apply, shapeCast_a_a1_apply]
  exact congrArg₂ Ideal.div (pay_exp_apply x0 x1 x2 x3 x4 x5 x6 p q) (kRowSum_apply x0 x1 x2 x3 x4 x5 x6 _ _ p)

end Layers

end Cert.KernelIdeal.Blk

end
-- ==== Proof.KernelIdealValue.lean ====
/-
  The result array after the run, as one function of what the launch finds.

  Grid point `t` takes rows `2048·t … 2048·t + 2047` of the feature array and writes the same rows of the result;
  the weights and biases are taken whole at every point. So the block a point writes back is the specification's
  function restricted to its rows, the 32 blocks cover the result array, and the array ends as the specification's
  function of the feature array and the six weight and bias arrays, at every index.
-/
import proofs.«132427_j87703232184483_1_alg».proof.Proof.KernelIdealBlock
import Idealize.ShloMosaic.Lib.Pipeline.Value

set_option maxRecDepth 16384

noncomputable section

namespace Cert.KernelIdeal.Val

open Cert.KernelIdeal Cert.KernelIdeal.Gen Cert.KernelIdeal.Fr Cert.KernelIdeal.Blk
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The result as one function of the arrays the launch finds: the specification's, of the feature array and the
    weights and biases. -/
abbrev whole (c : Dev nD) : S65536x128.Idx → EReal :=
  Spec.G (V m c main_v46) (V m c main_arg6) (V m c main_arg7) (V m c main_arg8) (V m c main_arg9) (V m c main_arg10) (V m c main_arg11)

/-! ## Where the blocks lie -/

/-- The printed index maps over the grid: the feature block and the result block sit at block row `t`, column 0;
    every weight and bias block at block 0. -/
theorem idx_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) = t.val
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- Every block row of the result is some point's. -/
theorem idx_onto : ∀ q : Fin 32, ∃ t : Fin cfg0.N, win0_7.index t (0 : Fin 2) = q.val ∧ win0_7.index t (1 : Fin 2) = 0 :=
  (by decide +kernel : ∀ q : Fin 32, ∃ t : Fin grid0.N, win0_7.index t (0 : Fin 2) = q.val ∧ win0_7.index t (1 : Fin 2) = 0)

/-! A weight or bias window's block is its whole array. -/

theorem blk1_eq (c : Dev nD) (t : Fin cfg0.N) : (iblk m c 1 t : S390x256.Idx → EReal) = V m c main_arg6 := by
  funext y
  show V m c main_arg6 (((cfg0.win 1).blk t).view.emb y) = V m c main_arg6 y
  refine congrArg (V m c main_arg6) (funext fun a => Fin.ext ?_)
  obtain ⟨-, -, -, -, e10, e11, e20, e30, e31, e40, e50, e51, e60⟩ := idx_facts t
  match a with
  | ⟨0, _⟩ => show win0_1.index t (0 : Fin 2) * 390 + 1 * (y 0).val = (y 0).val; omega
  | ⟨1, _⟩ => show win0_1.index t (1 : Fin 2) * 256 + 1 * (y 1).val = (y 1).val; omega
theorem blk2_eq (c : Dev nD) (t : Fin cfg0.N) : (iblk m c 2 t : S256.Idx → EReal) = V m c main_arg7 := by
  funext y
  show V m c main_arg7 (((cfg0.win 2).blk t).view.emb y) = V m c main_arg7 y
  refine congrArg (V m c main_arg7) (funext fun a => Fin.ext ?_)
  obtain ⟨-, -, -, -, e10, e11, e20, e30, e31, e40, e50, e51, e60⟩ := idx_facts t
  match a with
  | ⟨0, _⟩ => show win0_2.index t (0 : Fin 1) * 256 + 1 * (y 0).val = (y 0).val; omega
theorem blk3_eq (c : Dev nD) (t : Fin cfg0.N) : (iblk m c 3 t : S256x512.Idx → EReal) = V m c main_arg8 := by
  funext y
  show V m c main_arg8 (((cfg0.win 3).blk t).view.emb y) = V m c main_arg8 y
  refine congrArg (V m c main_arg8) (funext fun a => Fin.ext ?_)
  obtain ⟨-, -, -, -, e10, e11, e20, e30, e31, e40, e50, e51, e60⟩ := idx_facts t
  match a with
  | ⟨0, _⟩ => show win0_3.index t (0 : Fin 2) * 256 + 1 * (y 0).val = (y 0).val; omega
  | ⟨1, _⟩ => show win0_3.index t (1 : Fin 2) * 512 + 1 * (y 1).val = (y 1).val; omega
theorem blk4_eq (c : Dev nD) (t : Fin cfg0.N) : (iblk m c 4 t : S512.Idx → EReal) = V m c main_arg9 := by
  funext y
  show V m c main_arg9 (((cfg0.win 4).blk t).view.emb y) = V m c main_arg9 y
  refine congrArg (V m c main_arg9) (funext fun a => Fin.ext ?_)
  obtain ⟨-, -, -, -, e10, e11, e20, e30, e31, e40, e50, e51, e60⟩ := idx_facts t
  match a with
  | ⟨0, _⟩ => show win0_4.index t (0 : Fin 1) * 512 + 1 * (y 0).val = (y 0).val; omega
theorem blk5_eq (c : Dev nD) (t : Fin cfg0.N) : (iblk m c 5 t : S512x128.Idx → EReal) = V m c main_arg10 := by
  funext y
  show V m c main_arg10 (((cfg0.win 5).blk t).view.emb y) = V m c main_arg10 y
  refine congrArg (V m c main_arg10) (funext fun a => Fin.ext ?_)
  obtain ⟨-, -, -, -, e10, e11, e20, e30, e31, e40, e50, e51, e60⟩ := idx_facts t
  match a with
  | ⟨0, _⟩ => show win0_5.index t (0 : Fin 2) * 512 + 1 * (y 0).val = (y 0).val; omega
  | ⟨1, _⟩ => show win0_5.index t (1 : Fin 2) * 128 + 1 * (y 1).val = (y 1).val; omega
theorem blk6_eq (c : Dev nD) (t : Fin cfg0.N) : (iblk m c 6 t : S128.Idx → EReal) = V m c main_arg11 := by
  funext y
  show V m c main_arg11 (((cfg0.win 6).blk t).view.emb y) = V m c main_arg11 y
  refine congrArg (V m c main_arg11) (funext fun a => Fin.ext ?_)
  obtain ⟨-, -, -, -, e10, e11, e20, e30, e31, e40, e50, e51, e60⟩ := idx_facts t
  match a with
  | ⟨0, _⟩ => show win0_6.index t (0 : Fin 1) * 128 + 1 * (y 0).val = (y 0).val; omega

/-- Row `p` of the feature block at point `t` is the row of the feature array that row `p` of the result block is. -/
theorem featRow_eq (c : Dev nD) (t : Fin cfg0.N) (j : S2048x128.Idx) :
    (fun k : Fin 390 => (iblk m c 0 t : S2048x390.Idx → EReal) (ix2 (j 0) k))
      = fun k : Fin 390 => V m c main_v46 (ix2 ((((cfg0.win 7).blk t).view.emb j) 0) k) := by
  funext k
  show V m c main_v46 (((cfg0.win 0).blk t).view.emb (ix2 (j 0) k)) = V m c main_v46 (ix2 ((((cfg0.win 7).blk t).view.emb j) 0) k)
  refine congrArg (V m c main_v46) (funext fun a => Fin.ext ?_)
  obtain ⟨e00, e01, -, -, -, -, -, -, -, -, -, -, -⟩ := idx_facts t
  match a with
  | ⟨0, _⟩ => show win0_0.index t (0 : Fin 2) * 2048 + 1 * (j 0).val = win0_7.index t (0 : Fin 2) * 2048 + 1 * (j 0).val; omega
  | ⟨1, _⟩ => show win0_0.index t (1 : Fin 2) * 390 + 1 * k.val = k.val; omega

/-- The class coordinate is not moved by the result block's place. -/
theorem class_eq (t : Fin cfg0.N) (j : S2048x128.Idx) : j 1 = (((cfg0.win 7).blk t).view.emb j) 1 := by
  apply Fin.ext
  obtain ⟨-, -, e71, -, -, -, -, -, -, -, -, -, -⟩ := idx_facts t
  show (j 1).val = win0_7.index t (1 : Fin 2) * 128 + 1 * (j 1).val
  omega

/-- The specification's row function respects equal arguments. -/
theorem rowOut_congr {W1 W1' : (⟨2, ![390, 256]⟩ : Shape).Idx → EReal} {b1 b1' : (⟨1, ![256]⟩ : Shape).Idx → EReal}
    {W2 W2' : (⟨2, ![256, 512]⟩ : Shape).Idx → EReal} {b2 b2' : (⟨1, ![512]⟩ : Shape).Idx → EReal}
    {W3 W3' : (⟨2, ![512, 128]⟩ : Shape).Idx → EReal} {b3 b3' : (⟨1, ![128]⟩ : Shape).Idx → EReal}
    {x x' : Fin 390 → EReal} {a a' : Fin 128}
    (h1 : W1 = W1') (h2 : b1 = b1') (h3 : W2 = W2') (h4 : b2 = b2') (h5 : W3 = W3') (h6 : b3 = b3') (hx : x = x') (ha : a = a') :
    Spec.rowOut W1 b1 W2 b2 W3 b3 x a = Spec.rowOut W1' b1' W2' b2' W3' b3' x' a' := by
  subst h1 h2 h3 h4 h5 h6 hx ha; rfl

/-! ## What a point writes back, and the whole array -/

/-- The block the body leaves, at any index of the block. -/
theorem outBlk_at (x0 : Vec Ideal S2048x390 .f32) (x1 : Vec Ideal S390x256 .f32) (x2 : Vec Ideal S256 .f32) (x3 : Vec Ideal S256x512 .f32)
    (x4 : Vec Ideal S512 .f32) (x5 : Vec Ideal S512x128 .f32) (x6 : Vec Ideal S128 .f32) (j : S2048x128.Idx) :
    outBlk x0 x1 x2 x3 x4 x5 x6 j = Spec.rowOut x1 x2 x3 x4 x5 x6 (fun k => x0 (ix2 (j 0) k)) (j 1) := by
  obtain ⟨p, q, rfl⟩ : ∃ (p : Fin 2048) (q : Fin 128), j = ix2 p q := ⟨j 0, j 1, eq_ix2 j⟩
  exact outBlk_apply x0 x1 x2 x3 x4 x5 x6 p q

/-- WHAT POINT `t` WRITES BACK is block `t` of the whole-array function. -/
theorem flushed_eq (c : Dev nD) (t : Fin cfg0.N) :
    (dats m 0 c).flushed 7 t = ((cfg0.win 7).blk t).view.read (Elt Ideal) (whole m c) := by
  show (cfg0.win 7).cut (grid0.coords t) ((dats m 0 c).after 7 t) = _
  rw [after_out]
  funext j
  show outBlk (iblk m c 0 t) (iblk m c 1 t) (iblk m c 2 t) (iblk m c 3 t) (iblk m c 4 t) (iblk m c 5 t) (iblk m c 6 t) j
    = whole m c (((cfg0.win 7).blk t).view.emb j)
  refine (outBlk_at (iblk m c 0 t) (iblk m c 1 t) (iblk m c 2 t) (iblk m c 3 t) (iblk m c 4 t) (iblk m c 5 t) (iblk m c 6 t) j).trans ?_
  exact rowOut_congr (blk1_eq m c t) (blk2_eq m c t) (blk3_eq m c t) (blk4_eq m c t) (blk5_eq m c t) (blk6_eq m c t)
    (featRow_eq m c t j) (class_eq t j)

/-- An index of the result is in point `t`'s block iff each coordinate is in the block's range on its axis. -/
theorem mem_blk (t : Fin cfg0.N) (i : S65536x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v47).slice (win0_7.rect t)).set ↔ _
  rw [View.set_slice_whole, Rect.mem_set_unit]
  exact Iff.rfl

/-- Every index of the result lies in the block of the point its row falls to. -/
theorem cover (i : S65536x128.Idx) : ∃ t : Fin cfg0.N, (cfg0.win 7).flush t = true ∧ i ∈ ((cfg0.win 7).blk t).view.set := by
  have hi0 : (i 0).val < 65536 := (i 0).isLt
  have hi1 : (i 1).val < 128 := (i 1).isLt
  obtain ⟨t, q0, q1⟩ := idx_onto ⟨(i 0).val / 2048, by omega⟩
  have q0' : win0_7.index t (0 : Fin 2) = (i 0).val / 2048 := q0
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- THE RESULT ARRAY after the run. -/
theorem final (c : Dev nD) : (dats m 0 c).arrAt 7 cfg0.N = whole m c :=
  (dats m 0 c).arrAt_eq_of_cover 7 (whole m c) (fun t _ => flushed_eq m c t) cover

/-- The run re-posted: the result array at the whole-array function, the twelve arguments as they were. -/
theorem run : θ_run defs (onTc (τ := τ) (main (F := Ideal))) ⟨m, fun _ => 0, ρ⟩ fun r => ∀ c : Dev nD,
      r.2.mem ((c.tc : Thread nD τ).loc main_v47) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 7).trans (final m c), args_of_post m (dats m) (A_eq m) r h c⟩)
    (run_main (F := Ideal) m ρ)

end Cert.KernelIdeal.Val

end
-- ==== Proof.LibNary5.lean ====
/-
  A five-operand host operation (a join of five arrays along one axis) read at its result: its function applied to
  the five operands' contents, each named at its own reference, so that a composition of operations can go on
  through the operands.
-/
import Idealize.ShloMosaic.Lib.StableHlo.Run

namespace Idealize.ShloMosaic.StableHlo

variable {nD : Nat} {τ : Topo} {sig : RefSig} {Val : EltTy → Type}
variable {x a b c d y : Ref sig .tc}

/-- The result buffer of an operation over the literal family `![x, a, b, c, d]` holds the operation's function of
    the five operands' contents, operand `k` at its own reference. -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

/-- The same, in the form a simplifier pass over a composition of operations uses. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) :=
  nary5_result f hxs hy F

end Idealize.ShloMosaic.StableHlo
-- ==== Proof.KernelIdealFeats.lean ====
/-
  The feature array the launch finds is the reference's feature array.

  Both programs open with the same fifty-seven host operations: for each of the five index columns a slice, a
  wrap of negative indices, and a table look-up; the five looked-up pieces joined along the last axis; the join
  flattened to one row of 390 features per sample. Here the kernel program's operations are composed, result by
  result, into one term of the six arrays they read, and that term is the one the reference's operations compose
  to. Nothing of the look-ups is opened: the two terms are compared as they stand, at any float family.
-/
import proofs.«132427_j87703232184483_1_alg».proof.Proof.KernelIdealFrame
import proofs.«132427_j87703232184483_1_alg».proof.Proof.Gen.ReferenceIdeal.Read
import proofs.«132427_j87703232184483_1_alg».proof.Proof.LibNary5
import Idealize.ShloMosaic.Lib.StableHlo.Run

noncomputable section

namespace Cert.KernelIdeal.Feats

open Cert.KernelIdeal Cert.KernelIdeal.Gen Cert.KernelIdeal.Fr
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 65536 in
set_option maxHeartbeats 4000000 in
/-- The flattened join of the five look-ups, as the launch finds it, is the reference's stage of the same name at
    the launch contents of the index array and the five tables. -/
theorem V_feats (c : Dev nD) :
    V m c main_v46 = Cert.ReferenceIdeal.Read.val_main_v46 (F := F)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  dsimp only [V, hostOps0]
  simp (disch := decide) only [after_cons, after_nil,
    nullary_result', unary_result', binary_result', ternary_result', reshape_result', nary_result', Matrix.cons_val,
    nullary_result_ne', unary_result_ne', binary_result_ne', ternary_result_ne', reshape_result_ne', nary_result_ne']
  unfold Cert.ReferenceIdeal.Read.val_main_v46 Cert.ReferenceIdeal.Read.val_main_v45
  rfl

end Cert.KernelIdeal.Feats

end
-- ==== Proof.ReferenceValue.lean ====
/-
  The reference, read one operation at a time, computes the specification's function of its feature array.

  After the shared look-ups and their flattening (kept closed here: the feature array is whatever they produce),
  the reference is three matrix products with biases and two rectifiers, a row maximum taken from −∞, the
  exponentials of the shifted logits, their row sums started from zero, and the quotient. Each is read at row `r`
  and the column in question; the matrix products and the row sum are sums over the contracted coordinate, the row
  maximum a fold of `max`. The one arithmetic fact used is that a sum started from the float zero is the sum.
-/
import proofs.«132427_j87703232184483_1_alg».proof.Proof.Gen.ReferenceIdeal.Read
import proofs.«132427_j87703232184483_1_alg».proof.Proof.MlpSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Where each operation reads its operands -/

theorem lidx47 (r : Fin 65536) (a : Fin 256) (k : Fin 390) : lidx_main_v47 (ix2 r a) k = ix2 r k := funext fun ax => Fin.ext (by match ax with | ⟨0, _⟩ => rfl | ⟨1, _⟩ => rfl)
theorem ridx47 (r : Fin 65536) (a : Fin 256) (k : Fin 390) : ridx_main_v47 (ix2 r a) k = ix2 k a := funext fun ax => Fin.ext (by match ax with | ⟨0, _⟩ => rfl | ⟨1, _⟩ => rfl)
theorem bias49 (r : Fin 65536) (a : Fin 256) : idx_main_v48 (idx_main_v49 (ix2 r a)) = ix1 a := funext fun ax => Fin.ext (by match ax with | ⟨0, _⟩ => rfl)
theorem lidx52 (r : Fin 65536) (a : Fin 512) (k : Fin 256) : lidx_main_v52 (ix2 r a) k = ix2 r k := funext fun ax => Fin.ext (by match ax with | ⟨0, _⟩ => rfl | ⟨1, _⟩ => rfl)
theorem ridx52 (r : Fin 65536) (a : Fin 512) (k : Fin 256) : ridx_main_v52 (ix2 r a) k = ix2 k a := funext fun ax => Fin.ext (by match ax with | ⟨0, _⟩ => rfl | ⟨1, _⟩ => rfl)
theorem bias54 (r : Fin 65536) (a : Fin 512) : idx_main_v53 (idx_main_v54 (ix2 r a)) = ix1 a := funext fun ax => Fin.ext (by match ax with | ⟨0, _⟩ => rfl)
theorem lidx57 (r : Fin 65536) (a : Fin 128) (k : Fin 512) : lidx_main_v57 (ix2 r a) k = ix2 r k := funext fun ax => Fin.ext (by match ax with | ⟨0, _⟩ => rfl | ⟨1, _⟩ => rfl)
theorem ridx57 (r : Fin 65536) (a : Fin 128) (k : Fin 512) : ridx_main_v57 (ix2 r a) k = ix2 k a := funext fun ax => Fin.ext (by match ax with | ⟨0, _⟩ => rfl | ⟨1, _⟩ => rfl)
theorem bias59 (r : Fin 65536) (a : Fin 128) : idx_main_v58 (idx_main_v59 (ix2 r a)) = ix1 a := funext fun ax => Fin.ext (by match ax with | ⟨0, _⟩ => rfl)
theorem col65 (r : Fin 65536) (a : Fin 128) : idx_main_v64 (idx_main_v65 (ix2 r a)) = ix1 r := funext fun ax => Fin.ext (by match ax with | ⟨0, _⟩ => rfl)
theorem col70 (r : Fin 65536) (a : Fin 128) : idx_main_v69 (idx_main_v70 (ix2 r a)) = ix1 r := funext fun ax => Fin.ext (by match ax with | ⟨0, _⟩ => rfl)
theorem row68 (r : Fin 65536) (k : Fin 128) : idx_main_v68 (ix1 r) k = ix2 r k := funext fun ax => Fin.ext (by match ax with | ⟨0, _⟩ => rfl | ⟨1, _⟩ => rfl)

/-- In a reduction of the 65536×128 logits along their rows, the source index of row `r` at position `k` is `(r, k)`. -/
theorem lift_row (h : S65536x128.Reduces [1] S65536) (r : Fin 65536) (k : Fin (S65536x128.size 1)) :
    h.lift (ix1 r) k = ix2 r (⟨k.val, k.isLt⟩ : Fin 128) := by
  funext c; apply Fin.ext
  fin_cases c <;> rfl

section Stages

variable (x0 : (⟨S65536x10x5, .i32⟩ : BufTy).Contents (Elt Ideal)) (x1 : (⟨S10000x16, .f32⟩ : BufTy).Contents (Elt Ideal)) (x2 : (⟨S2000x8, .f32⟩ : BufTy).Contents (Elt Ideal))
  (x3 : (⟨S1000x4, .f32⟩ : BufTy).Contents (Elt Ideal)) (x4 : (⟨S7x3, .f32⟩ : BufTy).Contents (Elt Ideal)) (x5 : (⟨S1440x8, .f32⟩ : BufTy).Contents (Elt Ideal))
  (x6 : (⟨S390x256, .f32⟩ : BufTy).Contents (Elt Ideal)) (x7 : (⟨S256, .f32⟩ : BufTy).Contents (Elt Ideal)) (x8 : (⟨S256x512, .f32⟩ : BufTy).Contents (Elt Ideal)) (x9 : (⟨S512, .f32⟩ : BufTy).Contents (Elt Ideal))
  (x10 : (⟨S512x128, .f32⟩ : BufTy).Contents (Elt Ideal)) (x11 : (⟨S128, .f32⟩ : BufTy).Contents (Elt Ideal))

/-! ## The layers -/

theorem hidden1_apply (r : Fin 65536) (a : Fin 256) :
    val_main_v51 (F := Ideal) x0 x1 x2 x3 x4 x5 x6 x7 (ix2 r a) = Spec.hidden1 x6 x7 (fun k => val_main_v46 (F := Ideal) x0 x1 x2 x3 x4 x5 (ix2 r k)) a := by
  rw [val_main_v51_apply, val_main_v50_apply, val_main_v47_apply, val_main_v49_apply, val_main_v48_apply,
    val_main_call0_v0_apply, val_main_call0_cst_apply, bias49]
  simp only [lidx47, ridx47]
  rfl

theorem hidden2_apply (r : Fin 65536) (a : Fin 512) :
    val_main_v56 (F := Ideal) x0 x1 x2 x3 x4 x5 x6 x7 x8 x9 (ix2 r a) = Spec.hidden2 x6 x7 x8 x9 (fun k => val_main_v46 (F := Ideal) x0 x1 x2 x3 x4 x5 (ix2 r k)) a := by
  rw [val_main_v56_apply, val_main_v55_apply, val_main_v52_apply, val_main_v54_apply, val_main_v53_apply,
    val_main_call1_v0_apply, val_main_call1_cst_apply, bias54]
  simp only [lidx52, ridx52, hidden1_apply]
  rfl

theorem logit_apply (r : Fin 65536) (a : Fin 128) :
    val_main_v60 (F := Ideal) x0 x1 x2 x3 x4 x5 x6 x7 x8 x9 x10 x11 (ix2 r a) = Spec.logit x6 x7 x8 x9 x10 x11 (fun k => val_main_v46 (F := Ideal) x0 x1 x2 x3 x4 x5 (ix2 r k)) a := by
  rw [val_main_v60_apply, val_main_v57_apply, val_main_v59_apply, val_main_v58_apply, bias59]
  simp only [lidx57, ridx57, hidden2_apply]
  rfl

/-! ## The softmax of a row -/

theorem rowMax_apply (r : Fin 65536) :
    val_main_v63 (F := Ideal) x0 x1 x2 x3 x4 x5 x6 x7 x8 x9 x10 x11 (ix1 r) = Spec.rowMax x6 x7 x8 x9 x10 x11 (fun k => val_main_v46 (F := Ideal) x0 x1 x2 x3 x4 x5 (ix2 r k)) := by
  have h : S65536x128.Reduces [1] S65536 := by decide
  rw [val_main_v63_apply, val_main_v62_apply, val_main_cst_9_apply]
  unfold val_main_v61
  rw [Host.reduce_eq_fold_single FloatOps.maximumf _ _ reducesTo_S65536x128_S65536_d1 h h_S_]
  have hf : (val_main_v60 (F := Ideal) x0 x1 x2 x3 x4 x5 x6 x7 x8 x9 x10 x11 ∘ h.lift (ix1 r))
      = Spec.logit x6 x7 x8 x9 x10 x11 (fun k => val_main_v46 (F := Ideal) x0 x1 x2 x3 x4 x5 (ix2 r k)) := funext fun k => by
    show val_main_v60 (F := Ideal) x0 x1 x2 x3 x4 x5 x6 x7 x8 x9 x10 x11 (h.lift (ix1 r) k) = _
    rw [lift_row, logit_apply]
    rfl
  rw [hf]
  rfl

theorem expd_apply (r : Fin 65536) (a : Fin 128) :
    val_main_v67 (F := Ideal) x0 x1 x2 x3 x4 x5 x6 x7 x8 x9 x10 x11 (ix2 r a) = Spec.expd x6 x7 x8 x9 x10 x11 (fun k => val_main_v46 (F := Ideal) x0 x1 x2 x3 x4 x5 (ix2 r k)) a := by
  rw [val_main_v67_apply, val_main_v66_apply, val_main_v65_apply, val_main_v64_apply, col65, rowMax_apply, logit_apply]
  rfl

theorem rowSum_apply (r : Fin 65536) :
    val_main_v68 (F := Ideal) x0 x1 x2 x3 x4 x5 x6 x7 x8 x9 x10 x11 (ix1 r) = ∑ a : Fin 128, Spec.expd x6 x7 x8 x9 x10 x11 (fun k => val_main_v46 (F := Ideal) x0 x1 x2 x3 x4 x5 (ix2 r k)) a := by
  rw [val_main_v68_apply, val_main_cst_10_apply]
  simp only [row68, expd_apply]
  show Ideal.ofBits .f32 0x00000000#32 + _ = _
  rw [Ideal.ofBits_zero_f32, zero_add]

theorem rowOut_apply (r : Fin 65536) (a : Fin 128) :
    val_main_v71 (F := Ideal) x0 x1 x2 x3 x4 x5 x6 x7 x8 x9 x10 x11 (ix2 r a) = Spec.rowOut x6 x7 x8 x9 x10 x11 (fun k => val_main_v46 (F := Ideal) x0 x1 x2 x3 x4 x5 (ix2 r k)) a := by
  rw [val_main_v71_apply, val_main_v70_apply, val_main_v69_apply, col70, rowSum_apply, expd_apply]
  rfl

/-- THE REFERENCE'S RESULT is the specification's function of the feature array the look-ups produce. -/
theorem result_eq :
    val_main_v71 (F := Ideal) x0 x1 x2 x3 x4 x5 x6 x7 x8 x9 x10 x11 = Spec.G (val_main_v46 (F := Ideal) x0 x1 x2 x3 x4 x5) x6 x7 x8 x9 x10 x11 := by
  funext i
  obtain ⟨r, a, rfl⟩ : ∃ (r : Fin 65536) (a : Fin 128), i = ix2 r a := ⟨i 0, i 1, eq_ix2 i⟩
  exact rowOut_apply x0 x1 x2 x3 x4 x5 x6 x7 x8 x9 x10 x11 r a

end Stages

end Cert.ReferenceIdeal.RefValue

end
-- ==== Proof.lean ====
/-
  The certificate of the embedding-lookup network: a kernel that runs a three-layer dense network with a softmax
  over blocks of 2048 samples, against the same network written with whole-array operations.

  Both programs first gather five embedding tables by the same index columns and join the pieces into one row of
  390 features per sample; the feature array is the same function of the inputs in both, and is never opened.
  From it, on the extended reals, each sample's result is
      softmax (relu (relu (x·W1 + b1)·W2 + b2)·W3 + b3)
  with the softmax shifted by the row maximum. The kernel computes it block by block, the reference on the whole
  array; a rounding to bf16 is the identity on the extended reals, a matrix product is the sum over the shared
  coordinate in both, and the reference's row sum starts from a float zero, which adds nothing. No finiteness of
  the inputs is used: the two sides are the same expression entry by entry.

  The frames: each kernel program's frame is proved from its host operations and one run of the kernel body; the
  reference's is its run with the result dropped. The idealization rewrote nothing, so the preservation claim is
  trivial.
-/
import proofs.«132427_j87703232184483_1_alg».proof.Defs
import proofs.«132427_j87703232184483_1_alg».proof.Proof.Gen.Kernel
import proofs.«132427_j87703232184483_1_alg».proof.Proof.Gen.KernelIdeal
import proofs.«132427_j87703232184483_1_alg».proof.Proof.Gen.ReferenceIdeal
import proofs.«132427_j87703232184483_1_alg».proof.Proof.Gen.Pre_finite_inputs
import proofs.«132427_j87703232184483_1_alg».proof.Proof.Gen.ReferenceIdeal.Run
import proofs.«132427_j87703232184483_1_alg».proof.Proof.Gen.ReferenceIdeal.Read
import proofs.«132427_j87703232184483_1_alg».proof.Proof.KernelFrame
import proofs.«132427_j87703232184483_1_alg».proof.Proof.KernelIdealFrame
import proofs.«132427_j87703232184483_1_alg».proof.Proof.KernelIdealValue
import proofs.«132427_j87703232184483_1_alg».proof.Proof.KernelIdealFeats
import proofs.«132427_j87703232184483_1_alg».proof.Proof.ReferenceValue
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the twelve inputs, both programs end with the specification's function of the
    feature array and the weights and biases: the kernel's result array by its blocks, the reference's by its
    operations read in order; the feature arrays agree because the look-ups are the same operations of equal inputs. -/
theorem algebraic : Cert.algebraic_KernelIdeal_ReferenceIdeal := by
  intro m ρ m' ρ' _ hagree
  refine ⟨fun c => Cert.KernelIdeal.Val.whole m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v71_eq, Cert.ReferenceIdeal.RefValue.result_eq, a0, a1, a2, a3, a4, a5, a6, a7, a8, a9, a10, a11]
  dsimp only [Cert.KernelIdeal.Val.whole]
  rw [Cert.KernelIdeal.Feats.V_feats (F := Ideal) m c, Cert.KernelIdeal.Fr.V_main_arg6, Cert.KernelIdeal.Fr.V_main_arg7,
    Cert.KernelIdeal.Fr.V_main_arg8, Cert.KernelIdeal.Fr.V_main_arg9, Cert.KernelIdeal.Fr.V_main_arg10, Cert.KernelIdeal.Fr.V_main_arg11]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
